-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2048 .f32) (main_arg12 : FVec F S2048x2048 .f32) (main_arg13 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_v63 main_v67

def fn_part2 {F : FTy → Type} [FloatOps F] (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_v48 main_v49 main_v50

def fn_part1 {F : FTy → Type} [FloatOps F] (main_arg4 : FVec F S2048x2048 .f32) (main_arg5 : FVec F S2048x2048 .f32) (main_arg6 : FVec F S2048x2048 .f32) (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048x2048 .f32) (main_arg5 : FVec F S2048x2048 .f32) (main_arg6 : FVec F S2048x2048 .f32) (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S512x512 : Shape := ⟨2, ![512, 512]⟩
abbrev S512x256 : Shape := ⟨2, ![512, 256]⟩
abbrev S256 : Shape := ⟨1, ![256]⟩
abbrev S1x256 : Shape := ⟨2, ![1, 256]⟩

abbrev nBuf : Space → Nat
  | .hbm => 16
  | .vmem => 39
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048, .f32⟩
  | .hbm, ⟨14, _⟩ => ⟨S4096x2048, .f32⟩
  | .hbm, ⟨15, _⟩ => ⟨S4096x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S256, .f32⟩
  | .local _ .vmem, ⟨15, _⟩ => ⟨S256, .f32⟩
  | .local _ .vmem, ⟨16, _⟩ => ⟨S512x256, .f32⟩
  | .local _ .vmem, ⟨17, _⟩ => ⟨S512x256, .f32⟩
  | .local _ .vmem, ⟨18, _⟩ => ⟨S256, .f32⟩
  | .local _ .vmem, ⟨19, _⟩ => ⟨S256, .f32⟩
  | .local _ .vmem, ⟨20, _⟩ => ⟨S512x256, .f32⟩
  | .local _ .vmem, ⟨21, _⟩ => ⟨S512x256, .f32⟩
  | .local _ .vmem, ⟨22, _⟩ => ⟨S256, .f32⟩
  | .local _ .vmem, ⟨23, _⟩ => ⟨S256, .f32⟩
  | .local _ .vmem, ⟨24, _⟩ => ⟨S512x256, .f32⟩
  | .local _ .vmem, ⟨25, _⟩ => ⟨S512x256, .f32⟩
  | .local _ .vmem, ⟨26, _⟩ => ⟨S256, .f32⟩
  | .local _ .vmem, ⟨27, _⟩ => ⟨S256, .f32⟩
  | .local _ .vmem, ⟨28, _⟩ => ⟨S512x256, .f32⟩
  | .local _ .vmem, ⟨29, _⟩ => ⟨S512x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | .local _ .vmem, ⟨34, _⟩ => ⟨S512x256, .f32⟩
  | .local _ .vmem, ⟨35, _⟩ => ⟨S512x256, .f32⟩
  | .local _ .vmem, ⟨36, _⟩ => ⟨S512x256, .f32⟩
  | .local _ .vmem, ⟨37, _⟩ => ⟨S512x256, .f32⟩
  | .local _ .vmem, ⟨38, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v63 : BitVec 1 := Scalar.cmpi .eq arg2 c3_i32
  let v64 : BitVec 32 := Scalar.extui v63
  let c0_i32_52 : BitVec 32 := 0#32
  let v65 : BitVec 1 := Scalar.cmpi .ne v64 c0_i32_52
  v65

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_9 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_11 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_13 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, true]

abbrev stage0_11 : Fin 2 → Memref sig .tc .vmem S256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, true]

abbrev stage0_13 : Fin 2 → Memref sig .tc .vmem S256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, false]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

class Facts₀ : Prop where
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x2048.size a
  hwx0_0 : ∀ i : grid0.Coords, EltTy.bits .f32 = 32 ∨ (Rect.block (s := S4096x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x2048.size a
  hwx0_1 : ∀ i : grid0.Coords, EltTy.bits .f32 = 32 ∨ (Rect.block (s := S4096x2048) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x2048.size a
  hwx0_2 : ∀ i : grid0.Coords, EltTy.bits .f32 = 32 ∨ (Rect.block (s := S4096x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S2048x2048.size a
  hwx0_3 : ∀ i : grid0.Coords, EltTy.bits .f32 = 32 ∨ (Rect.block (s := S2048x2048) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S2048x2048.size a
  hwx0_4 : ∀ i : grid0.Coords, EltTy.bits .f32 = 32 ∨ (Rect.block (s := S2048x2048) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S2048x2048.size a
  hwx0_5 : ∀ i : grid0.Coords, EltTy.bits .f32 = 32 ∨ (Rect.block (s := S2048x2048) S512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S2048x2048.size a
  hwx0_6 : ∀ i : grid0.Coords, EltTy.bits .f32 = 32 ∨ (Rect.block (s := S2048x2048) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S2048.size a
  hwx0_7 : ∀ i : grid0.Coords, EltTy.bits .f32 = 32 ∨ (Rect.block (s := S2048) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S2048x2048.size a
  hwx0_8 : ∀ i : grid0.Coords, EltTy.bits .f32 = 32 ∨ (Rect.block (s := S2048x2048) S512x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S2048.size a
  hwx0_9 : ∀ i : grid0.Coords, EltTy.bits .f32 = 32 ∨ (Rect.block (s := S2048) S256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S2048x2048.size a
  hwx0_10 : ∀ i : grid0.Coords, EltTy.bits .f32 = 32 ∨ (Rect.block (s := S2048x2048) S512x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S2048.size a
  hwx0_11 : ∀ i : grid0.Coords, EltTy.bits .f32 = 32 ∨ (Rect.block (s := S2048) S256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S2048x2048.size a
  hwx0_12 : ∀ i : grid0.Coords, EltTy.bits .f32 = 32 ∨ (Rect.block (s := S2048x2048) S512x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S2048.size a
  hwx0_13 : ∀ i : grid0.Coords, EltTy.bits .f32 = 32 ∨ (Rect.block (s := S2048) S256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x256.size a ≤ S4096x2048.size a
  hwx0_14 : ∀ i : grid0.Coords, EltTy.bits .f32 = 32 ∨ (Rect.block (s := S4096x2048) S512x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x256.size a ≤ S4096x2048.size a
  hwx0_15 : ∀ i : grid0.Coords, EltTy.bits .f32 = 32 ∨ (Rect.block (s := S4096x2048) S512x256.size (cc0_transform_15 i) (hinb0_15 i)).WholeWords (EltTy.packing .f32)

variable [Facts₀]

def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S512x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v0_0) S512x256.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v0_1) S512x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k0_cond2 i == 1#1) | 15 => fun i => !(k0_cond2 i == 1#1) | ⟨_ + 16, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S2048x8192 : Shape := ⟨2, ![2048, 8192]⟩
abbrev S2048x6144 : Shape := ⟨2, ![2048, 6144]⟩
abbrev S4096x8192 : Shape := ⟨2, ![4096, 8192]⟩
abbrev S4096x6144 : Shape := ⟨2, ![4096, 6144]⟩
abbrev S1x2048 : Shape := ⟨2, ![1, 2048]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048, .f32⟩
  | .hbm, ⟨14, _⟩ => ⟨S2048x8192, .f32⟩
  | .hbm, ⟨15, _⟩ => ⟨S2048x6144, .f32⟩
  | .hbm, ⟨16, _⟩ => ⟨S4096x8192, .f32⟩
  | .hbm, ⟨17, _⟩ => ⟨S4096x6144, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S1x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_cst_4 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]

class Facts₀ : Prop where
  concatenates_S2048x2048_S2048x2048_S2048x2048_S2048x2048_S2048x8192_d1 : Shape.Concatenates [S2048x2048, S2048x2048, S2048x2048, S2048x2048] S2048x8192 1
  concatenates_S2048x2048_S2048x2048_S2048x2048_S2048x6144_d1 : Shape.Concatenates [S2048x2048, S2048x2048, S2048x2048] S2048x6144 1
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  slices_S4096x6144_S4096x2048_0_0 : S4096x6144.Slices ![0, 0] S4096x2048
  slices_S4096x6144_S4096x2048_0_2048 : S4096x6144.Slices ![0, 2048] S4096x2048
  slices_S4096x6144_S4096x2048_0_4096 : S4096x6144.Slices ![0, 4096] S4096x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x8192_S4096x8192_1_0_0_1_n_n_wf : DotDims.WF S4096x2048 S2048x8192 S4096x8192 [1] [0] [0] [1] [] []
  dot_S4096x2048_S2048x6144_S4096x6144_1_0_0_1_n_n_wf : DotDims.WF S4096x2048 S2048x6144 S4096x6144 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf
def dot_S4096x2048_S2048x6144_S4096x6144_1_0_0_1_n_n : DotDims S4096x2048 S2048x6144 S4096x6144 where
  lhsContracting := [1]
  rhsContracting := [0]
  lhsNonContracting := [0]
  rhsNonContracting := [1]
  lhsBatch := []
  rhsBatch := []
  wf := dot_S4096x2048_S2048x6144_S4096x6144_1_0_0_1_n_n_wf

class Facts : Prop extends Facts₀ where

variable [Facts]
-- ==== Proof.Spec.lean ====
/-
  The function both programs compute, at the ideal values (extended reals), entry by entry.

  One step of an LSTM cell with four input projections and three recurrent ones, on a batch of 4096 rows and
  2048 hidden units. For row r and unit j, with (a · w) r j = ∑ k, a (r, k) · w (k, j) over the 2048 contracted
  indices:
      f = σ ((x · Wf) + (h · Uf) + bf j)          i = σ ((x · Wi) + (h · Ui) + bi j)
      o = σ ((x · Wo) + (h · Uo) + bo j)          g = tanh ((x · Wc) + bc j)
      c' = f · c (r, j) + i · g                   out = o · c'
  where σ t = 1 / (1 + e^(−t)). The two results are out and c'.

  The contracted sum is also written as the four partial sums over consecutive stretches of 512 indices, added
  one after the other onto zero: addition of extended reals is associative and commutative, so no finiteness is
  needed for that.
-/
import Idealize.ShloMosaic.PureOps.Ideal
import Idealize.ShloMosaic.Lib.ValueIdx

noncomputable section

namespace Cert.Lstm

open Idealize.ShloMosaic Idealize.ShloMosaic.ValueIdx

/-- A batch of rows: 4096 by 2048. -/
abbrev Act : Type := (⟨2, ![4096, 2048]⟩ : Shape).Idx → EReal
/-- A weight matrix: 2048 by 2048. -/
abbrev Wgt : Type := (⟨2, ![2048, 2048]⟩ : Shape).Idx → EReal
/-- A bias: 2048 entries. -/
abbrev Bias : Type := (⟨1, ![2048]⟩ : Shape).Idx → EReal

/-- Row r of a against column j of w. -/
def proj (a : Act) (w : Wgt) (r : Fin 4096) (j : Fin 2048) : EReal :=
  ∑ k : Fin 2048, a (ix2 r k) * w (ix2 k j)

/-- The contracted index 512·b + k of stretch b. -/
def kix (b : Fin 4) (k : Fin 512) : Fin 2048 := ⟨512 * b.val + k.val, by have := b.isLt; have := k.isLt; omega⟩

/-- The partial sum of row r against column j over stretch b of the contracted indices. -/
def part (a : Act) (w : Wgt) (r : Fin 4096) (j : Fin 2048) (b : Fin 4) : EReal :=
  ∑ k : Fin 512, a (ix2 r (kix b k)) * w (ix2 (kix b k) j)

/-- A sigmoid gate. -/
def gate (x h : Act) (W U : Wgt) (b : Bias) (r : Fin 4096) (j : Fin 2048) : EReal :=
  Ideal.logistic (proj x W r j + proj h U r j + b (ix1 j))

/-- The candidate cell value. -/
def cand (x : Act) (W : Wgt) (b : Bias) (r : Fin 4096) (j : Fin 2048) : EReal :=
  Ideal.tanh (proj x W r j + b (ix1 j))

/-- The new cell state at (r, j). -/
def cellAt (x h c : Act) (Wf Wi Wo Wc : Wgt) (bc : Bias) (Uf : Wgt) (bf : Bias) (Ui : Wgt) (bi : Bias) (Uo : Wgt) (bo : Bias)
    (r : Fin 4096) (j : Fin 2048) : EReal :=
  gate x h Wf Uf bf r j * c (ix2 r j) + gate x h Wi Ui bi r j * cand x Wc bc r j

/-- The gated output at (r, j). -/
def outAt (x h c : Act) (Wf Wi Wo Wc : Wgt) (bc : Bias) (Uf : Wgt) (bf : Bias) (Ui : Wgt) (bi : Bias) (Uo : Wgt) (bo : Bias)
    (r : Fin 4096) (j : Fin 2048) : EReal :=
  gate x h Wo Uo bo r j * cellAt x h c Wf Wi Wo Wc bc Uf bf Ui bi Uo bo r j

/-- The new cell state, as an array. -/
def cell (x h c : Act) (Wf Wi Wo Wc : Wgt) (bc : Bias) (Uf : Wgt) (bf : Bias) (Ui : Wgt) (bi : Bias) (Uo : Wgt) (bo : Bias) : Act :=
  fun i => cellAt x h c Wf Wi Wo Wc bc Uf bf Ui bi Uo bo (i 0) (i 1)

/-- The gated output, as an array. -/
def out (x h c : Act) (Wf Wi Wo Wc : Wgt) (bc : Bias) (Uf : Wgt) (bf : Bias) (Ui : Wgt) (bi : Bias) (Uo : Wgt) (bo : Bias) : Act :=
  fun i => outAt x h c Wf Wi Wo Wc bc Uf bf Ui bi Uo bo (i 0) (i 1)

/-- Every contracted index lies in exactly one stretch. -/
def kEquiv : Fin 4 × Fin 512 ≃ Fin 2048 where
  toFun p := kix p.1 p.2
  invFun k := (⟨k.val / 512, by have := k.isLt; omega⟩, ⟨k.val % 512, Nat.mod_lt _ (by decide)⟩)
  left_inv p := by
    obtain ⟨b, k⟩ := p
    have hb := b.isLt; have hk := k.isLt
    refine Prod.ext (Fin.ext ?_) (Fin.ext ?_)
    · show (512 * b.val + k.val) / 512 = b.val; omega
    · show (512 * b.val + k.val) % 512 = k.val; omega
  right_inv k := by
    apply Fin.ext
    show 512 * (k.val / 512) + k.val % 512 = k.val
    exact Nat.div_add_mod k.val 512

/-- The whole contracted sum is the four partial sums added one after the other onto zero. -/
theorem proj_eq_parts (a : Act) (w : Wgt) (r : Fin 4096) (j : Fin 2048) :
    proj a w r j = (((0 + part a w r j 0) + part a w r j 1) + part a w r j 2) + part a w r j 3 := by
  unfold proj part
  rw [← Equiv.sum_comp kEquiv (fun k => a (ix2 r k) * w (ix2 k j)), Fintype.sum_prod_type, Fin.sum_univ_four, zero_add]
  rfl

end Cert.Lstm

end
-- ==== Proof.RefSide.lean ====
/-
  The reference's two results are the specification's two arrays.

  The reference lays Wf, Wi, Wo, Wc side by side as one 2048 by 8192 matrix and takes one product with x, then cuts the
  product back into four stretches of 2048 columns: column 2048·g + j of the joined matrix is column j of the g-th
  matrix, so column 2048·g + j of the product is row r of x against column j of the g-th matrix. The same holds for h
  against Uf, Ui, Uo laid side by side. Its sigmoid is written out as 1 / (1 + e^(−t)) with the constant word 0x3F800000,
  which is the extended real 1, and that expression is the logistic function by definition; a bias is broadcast down
  the rows, so at (r, j) it is the bias at j.
-/
import proofs.«148913_j57114475102581_1_alg».proof.Proof.Gen.ReferenceIdeal.Read
import proofs.«148913_j57114475102581_1_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem
open Cert.Lstm (Act Wgt Bias proj gate cand cellAt outAt)

/-! ## The joined matrices read at a column -/

/-- Four 2048-column matrices side by side, read at column 2048·n + j: column j of the n-th. -/
theorem v0_at (w0 w1 w2 w3 : Wgt) (n : Nat) (hn : n < 4) (w : Wgt)
    (hw : ([⟨S2048x2048, w0⟩, ⟨S2048x2048, w1⟩, ⟨S2048x2048, w2⟩, ⟨S2048x2048, w3⟩] : List ((s : Shape) × (s.Idx → EReal)))[n]'hn = ⟨S2048x2048, w⟩)
    (k j : Fin 2048) (c : Fin 8192) (hc : 2048 * n + j.val = c.val) :
    val_main_v0 (F := Ideal) w0 w1 w2 w3 (ix2 k c) = w (ix2 k j) := by
  unfold val_main_v0
  refine concatenate_apply_piece (1 : Fin S2048x8192.rank) _ _ (ix2 k c) n (by exact hn) S2048x2048 w hw rfl (2048 * n) ?_ (ix2 k j) ?_ hc
  · -- the columns before the n-th matrix
    match n, hn with
    | 0, _ => rfl
    | 1, _ => rfl
    | 2, _ => rfl
    | 3, _ => rfl
  · intro b hb
    match b with
    | ⟨0, _⟩ => rfl
    | ⟨1, _⟩ => exact absurd rfl hb

/-- Three 2048-column matrices side by side, read at column 2048·n + j: column j of the n-th. -/
theorem v1_at (w0 w1 w2 : Wgt) (n : Nat) (hn : n < 3) (w : Wgt)
    (hw : ([⟨S2048x2048, w0⟩, ⟨S2048x2048, w1⟩, ⟨S2048x2048, w2⟩] : List ((s : Shape) × (s.Idx → EReal)))[n]'hn = ⟨S2048x2048, w⟩)
    (k j : Fin 2048) (c : Fin 6144) (hc : 2048 * n + j.val = c.val) :
    val_main_v1 (F := Ideal) w0 w1 w2 (ix2 k c) = w (ix2 k j) := by
  unfold val_main_v1
  refine concatenate_apply_piece (1 : Fin S2048x6144.rank) _ _ (ix2 k c) n (by exact hn) S2048x2048 w hw rfl (2048 * n) ?_ (ix2 k j) ?_ hc
  · match n, hn with
    | 0, _ => rfl
    | 1, _ => rfl
    | 2, _ => rfl
  · intro b hb
    match b with
    | ⟨0, _⟩ => rfl
    | ⟨1, _⟩ => exact absurd rfl hb

/-! ## The two products read at a column of a stretch -/

/-- Row r of x against column 2048·n + j of the four matrices side by side is row r against column j of the n-th. -/
theorem v2_at (x0 : Act) (w0 w1 w2 w3 : Wgt) (n : Nat) (hn : n < 4) (w : Wgt)
    (hw : ([⟨S2048x2048, w0⟩, ⟨S2048x2048, w1⟩, ⟨S2048x2048, w2⟩, ⟨S2048x2048, w3⟩] : List ((s : Shape) × (s.Idx → EReal)))[n]'hn = ⟨S2048x2048, w⟩)
    (r : Fin 4096) (j : Fin 2048) (c : Fin 8192) (hc : 2048 * n + j.val = c.val) :
    val_main_v2 (F := Ideal) x0 w0 w1 w2 w3 (ix2 r c) = proj x0 w r j := by
  rw [val_main_v2_apply]
  unfold proj
  refine Finset.sum_congr rfl fun k _ => ?_
  have el : lidx_main_v2 (ix2 r c) k = ix2 r k :=
    funext fun a => Fin.ext (by match a with | ⟨0, _⟩ => rfl | ⟨1, _⟩ => rfl)
  have er : ridx_main_v2 (ix2 r c) k = ix2 k c :=
    funext fun a => Fin.ext (by match a with | ⟨0, _⟩ => rfl | ⟨1, _⟩ => rfl)
  rw [el, er, v0_at w0 w1 w2 w3 n hn w hw k j c hc]

/-- Row r of h against column 2048·n + j of the three matrices side by side is row r against column j of the n-th. -/
theorem v3_at (x1 : Act) (w0 w1 w2 : Wgt) (n : Nat) (hn : n < 3) (w : Wgt)
    (hw : ([⟨S2048x2048, w0⟩, ⟨S2048x2048, w1⟩, ⟨S2048x2048, w2⟩] : List ((s : Shape) × (s.Idx → EReal)))[n]'hn = ⟨S2048x2048, w⟩)
    (r : Fin 4096) (j : Fin 2048) (c : Fin 6144) (hc : 2048 * n + j.val = c.val) :
    val_main_v3 (F := Ideal) x1 w0 w1 w2 (ix2 r c) = proj x1 w r j := by
  rw [val_main_v3_apply]
  unfold proj
  refine Finset.sum_congr rfl fun k _ => ?_
  have el : lidx_main_v3 (ix2 r c) k = ix2 r k :=
    funext fun a => Fin.ext (by match a with | ⟨0, _⟩ => rfl | ⟨1, _⟩ => rfl)
  have er : ridx_main_v3 (ix2 r c) k = ix2 k c :=
    funext fun a => Fin.ext (by match a with | ⟨0, _⟩ => rfl | ⟨1, _⟩ => rfl)
  rw [el, er, v1_at w0 w1 w2 n hn w hw k j c hc]

/-! ## The seven stretches -/

/-- Columns [0, 2048) of x's product: x against Wf. -/
theorem v4_at (x0 : Act) (w0 w1 w2 w3 : Wgt) (r : Fin 4096) (j : Fin 2048) :
    val_main_v4 (F := Ideal) x0 w0 w1 w2 w3 (ix2 r j) = proj x0 w0 r j := by
  rw [val_main_v4_apply]
  have e : idx_main_v4 (ix2 r j) = ix2 r (⟨j.val, by have := j.isLt; omega⟩ : Fin 8192) :=
    funext fun a => Fin.ext (by match a with | ⟨0, _⟩ => rfl | ⟨1, _⟩ => rfl)
  rw [e]
  exact v2_at x0 w0 w1 w2 w3 0 (by decide) w0 rfl r j _ (by show 2048 * 0 + j.val = j.val; omega)

/-- Columns [2048, 4096) of x's product: x against Wi. -/
theorem v5_at (x0 : Act) (w0 w1 w2 w3 : Wgt) (r : Fin 4096) (j : Fin 2048) :
    val_main_v5 (F := Ideal) x0 w0 w1 w2 w3 (ix2 r j) = proj x0 w1 r j := by
  rw [val_main_v5_apply]
  have e : idx_main_v5 (ix2 r j) = ix2 r (⟨2048 + j.val, by have := j.isLt; omega⟩ : Fin 8192) :=
    funext fun a => Fin.ext (by match a with | ⟨0, _⟩ => rfl | ⟨1, _⟩ => rfl)
  rw [e]
  exact v2_at x0 w0 w1 w2 w3 1 (by decide) w1 rfl r j _ (by show 2048 * 1 + j.val = 2048 + j.val; omega)

/-- Columns [4096, 6144) of x's product: x against Wo. -/
theorem v6_at (x0 : Act) (w0 w1 w2 w3 : Wgt) (r : Fin 4096) (j : Fin 2048) :
    val_main_v6 (F := Ideal) x0 w0 w1 w2 w3 (ix2 r j) = proj x0 w2 r j := by
  rw [val_main_v6_apply]
  have e : idx_main_v6 (ix2 r j) = ix2 r (⟨4096 + j.val, by have := j.isLt; omega⟩ : Fin 8192) :=
    funext fun a => Fin.ext (by match a with | ⟨0, _⟩ => rfl | ⟨1, _⟩ => rfl)
  rw [e]
  exact v2_at x0 w0 w1 w2 w3 2 (by decide) w2 rfl r j _ (by show 2048 * 2 + j.val = 4096 + j.val; omega)

/-- Columns [6144, 8192) of x's product: x against Wc. -/
theorem v7_at (x0 : Act) (w0 w1 w2 w3 : Wgt) (r : Fin 4096) (j : Fin 2048) :
    val_main_v7 (F := Ideal) x0 w0 w1 w2 w3 (ix2 r j) = proj x0 w3 r j := by
  rw [val_main_v7_apply]
  have e : idx_main_v7 (ix2 r j) = ix2 r (⟨6144 + j.val, by have := j.isLt; omega⟩ : Fin 8192) :=
    funext fun a => Fin.ext (by match a with | ⟨0, _⟩ => rfl | ⟨1, _⟩ => rfl)
  rw [e]
  exact v2_at x0 w0 w1 w2 w3 3 (by decide) w3 rfl r j _ (by show 2048 * 3 + j.val = 6144 + j.val; omega)

/-- Columns [0, 2048) of h's product: h against Uf. -/
theorem v8_at (x1 : Act) (w0 w1 w2 : Wgt) (r : Fin 4096) (j : Fin 2048) :
    val_main_v8 (F := Ideal) x1 w0 w1 w2 (ix2 r j) = proj x1 w0 r j := by
  rw [val_main_v8_apply]
  have e : idx_main_v8 (ix2 r j) = ix2 r (⟨j.val, by have := j.isLt; omega⟩ : Fin 6144) :=
    funext fun a => Fin.ext (by match a with | ⟨0, _⟩ => rfl | ⟨1, _⟩ => rfl)
  rw [e]
  exact v3_at x1 w0 w1 w2 0 (by decide) w0 rfl r j _ (by show 2048 * 0 + j.val = j.val; omega)

/-- Columns [2048, 4096) of h's product: h against Ui. -/
theorem v9_at (x1 : Act) (w0 w1 w2 : Wgt) (r : Fin 4096) (j : Fin 2048) :
    val_main_v9 (F := Ideal) x1 w0 w1 w2 (ix2 r j) = proj x1 w1 r j := by
  rw [val_main_v9_apply]
  have e : idx_main_v9 (ix2 r j) = ix2 r (⟨2048 + j.val, by have := j.isLt; omega⟩ : Fin 6144) :=
    funext fun a => Fin.ext (by match a with | ⟨0, _⟩ => rfl | ⟨1, _⟩ => rfl)
  rw [e]
  exact v3_at x1 w0 w1 w2 1 (by decide) w1 rfl r j _ (by show 2048 * 1 + j.val = 2048 + j.val; omega)

/-- Columns [4096, 6144) of h's product: h against Uo. -/
theorem v10_at (x1 : Act) (w0 w1 w2 : Wgt) (r : Fin 4096) (j : Fin 2048) :
    val_main_v10 (F := Ideal) x1 w0 w1 w2 (ix2 r j) = proj x1 w2 r j := by
  rw [val_main_v10_apply]
  have e : idx_main_v10 (ix2 r j) = ix2 r (⟨4096 + j.val, by have := j.isLt; omega⟩ : Fin 6144) :=
    funext fun a => Fin.ext (by match a with | ⟨0, _⟩ => rfl | ⟨1, _⟩ => rfl)
  rw [e]
  exact v3_at x1 w0 w1 w2 2 (by decide) w2 rfl r j _ (by show 2048 * 2 + j.val = 4096 + j.val; omega)

/-! ## The biases broadcast down the rows -/

/-- The bias of the forget gate at (r, j) is its entry j. -/
theorem v13_at (b : Bias) (r : Fin 4096) (j : Fin 2048) : val_main_v13 (F := Ideal) b (ix2 r j) = b (ix1 j) := by
  rw [val_main_v13_apply, val_main_v12_apply]
  exact congrArg b (funext fun a => Fin.ext (by match a with | ⟨0, _⟩ => rfl))

/-- The bias of the input gate at (r, j) is its entry j. -/
theorem v23_at (b : Bias) (r : Fin 4096) (j : Fin 2048) : val_main_v23 (F := Ideal) b (ix2 r j) = b (ix1 j) := by
  rw [val_main_v23_apply, val_main_v22_apply]
  exact congrArg b (funext fun a => Fin.ext (by match a with | ⟨0, _⟩ => rfl))

/-- The bias of the output gate at (r, j) is its entry j. -/
theorem v33_at (b : Bias) (r : Fin 4096) (j : Fin 2048) : val_main_v33 (F := Ideal) b (ix2 r j) = b (ix1 j) := by
  rw [val_main_v33_apply, val_main_v32_apply]
  exact congrArg b (funext fun a => Fin.ext (by match a with | ⟨0, _⟩ => rfl))

/-- The bias of the candidate at (r, j) is its entry j. -/
theorem v43_at (b : Bias) (r : Fin 4096) (j : Fin 2048) : val_main_v43 (F := Ideal) b (ix2 r j) = b (ix1 j) := by
  rw [val_main_v43_apply, val_main_v42_apply]
  exact congrArg b (funext fun a => Fin.ext (by match a with | ⟨0, _⟩ => rfl))

/-! ## The three gates and the candidate -/

/-- The forget gate: 1 / (1 + e^(−t)) at t = x·Wf + h·Uf + bf is the logistic function at t. -/
theorem v20_at (x0 x1 : Act) (x3 x4 x5 x6 x8 : Wgt) (x9 : Bias) (x10 x12 : Wgt) (r : Fin 4096) (j : Fin 2048) :
    val_main_v20 (F := Ideal) x0 x1 x3 x4 x5 x6 x8 x9 x10 x12 (ix2 r j) = gate x0 x1 x3 x8 x9 r j := by
  rw [val_main_v20_apply, val_main_v19_apply, val_main_cst_0_apply, val_main_v18_apply, val_main_v17_apply, val_main_cst_apply,
    val_main_v16_apply, val_main_v15_apply, val_main_v14_apply, val_main_v11_apply, v4_at, v8_at, v13_at]
  simp only [Ideal.ofBits_def, Ideal.ofBits_one_f32, Ideal.hostDivf_def, Ideal.addf_def, Ideal.hostUnary_exp_def, Ideal.hostNegf_def,
    Ideal.negf_def]
  rfl

/-- The input gate: the logistic function at x·Wi + h·Ui + bi. -/
theorem v30_at (x0 x1 : Act) (x3 x4 x5 x6 x8 x10 : Wgt) (x11 : Bias) (x12 : Wgt) (r : Fin 4096) (j : Fin 2048) :
    val_main_v30 (F := Ideal) x0 x1 x3 x4 x5 x6 x8 x10 x11 x12 (ix2 r j) = gate x0 x1 x4 x10 x11 r j := by
  rw [val_main_v30_apply, val_main_v29_apply, val_main_cst_2_apply, val_main_v28_apply, val_main_v27_apply, val_main_cst_1_apply,
    val_main_v26_apply, val_main_v25_apply, val_main_v24_apply, val_main_v21_apply, v5_at, v9_at, v23_at]
  simp only [Ideal.ofBits_def, Ideal.ofBits_one_f32, Ideal.hostDivf_def, Ideal.addf_def, Ideal.hostUnary_exp_def, Ideal.hostNegf_def,
    Ideal.negf_def]
  rfl

/-- The output gate: the logistic function at x·Wo + h·Uo + bo. -/
theorem v40_at (x0 x1 : Act) (x3 x4 x5 x6 x8 x10 x12 : Wgt) (x13 : Bias) (r : Fin 4096) (j : Fin 2048) :
    val_main_v40 (F := Ideal) x0 x1 x3 x4 x5 x6 x8 x10 x12 x13 (ix2 r j) = gate x0 x1 x5 x12 x13 r j := by
  rw [val_main_v40_apply, val_main_v39_apply, val_main_cst_4_apply, val_main_v38_apply, val_main_v37_apply, val_main_cst_3_apply,
    val_main_v36_apply, val_main_v35_apply, val_main_v34_apply, val_main_v31_apply, v6_at, v10_at, v33_at]
  simp only [Ideal.ofBits_def, Ideal.ofBits_one_f32, Ideal.hostDivf_def, Ideal.addf_def, Ideal.hostUnary_exp_def, Ideal.hostNegf_def,
    Ideal.negf_def]
  rfl

/-- The candidate: the hyperbolic tangent at x·Wc + bc. -/
theorem v45_at (x0 : Act) (x3 x4 x5 x6 : Wgt) (x7 : Bias) (r : Fin 4096) (j : Fin 2048) :
    val_main_v45 (F := Ideal) x0 x3 x4 x5 x6 x7 (ix2 r j) = cand x0 x6 x7 r j := by
  rw [val_main_v45_apply, val_main_v44_apply, v7_at, v43_at]
  simp only [Ideal.addf_def, Ideal.hostUnary_tanh_def]
  rfl

/-! ## The two results -/

/-- The new cell state at (r, j). -/
theorem v47_at (x0 x1 x2 : Act) (x3 x4 x5 x6 : Wgt) (x7 : Bias) (x8 : Wgt) (x9 : Bias) (x10 : Wgt) (x11 : Bias) (x12 : Wgt)
    (x13 : Bias) (r : Fin 4096) (j : Fin 2048) :
    val_main_v47 (F := Ideal) x0 x1 x2 x3 x4 x5 x6 x7 x8 x9 x10 x11 x12 (ix2 r j)
      = cellAt x0 x1 x2 x3 x4 x5 x6 x7 x8 x9 x10 x11 x12 x13 r j := by
  rw [val_main_v47_apply, val_main_v41_apply, val_main_v46_apply, v20_at, v30_at, v45_at]
  simp only [Ideal.addf_def, Ideal.mulf_def]
  rfl

/-- The reference's second result is the new cell state. -/
theorem v47_eq (x0 x1 x2 : Cert.Lstm.Act) (x3 x4 x5 x6 : Cert.Lstm.Wgt) (x7 : Cert.Lstm.Bias) (x8 : Cert.Lstm.Wgt)
    (x9 : Cert.Lstm.Bias) (x10 : Cert.Lstm.Wgt) (x11 : Cert.Lstm.Bias) (x12 : Cert.Lstm.Wgt) (x13 : Cert.Lstm.Bias) :
    Cert.ReferenceIdeal.Read.val_main_v47 (F := Ideal) x0 x1 x2 x3 x4 x5 x6 x7 x8 x9 x10 x11 x12
      = Cert.Lstm.cell x0 x1 x2 x3 x4 x5 x6 x7 x8 x9 x10 x11 x12 x13 := by
  funext i
  obtain ⟨r, j, rfl⟩ : ∃ (r : Fin 4096) (j : Fin 2048), i = ix2 r j := ⟨i 0, i 1, eq_ix2 i⟩
  exact v47_at x0 x1 x2 x3 x4 x5 x6 x7 x8 x9 x10 x11 x12 x13 r j

/-- The reference's first result is the gated output. -/
theorem v48_eq (x0 x1 x2 : Cert.Lstm.Act) (x3 x4 x5 x6 : Cert.Lstm.Wgt) (x7 : Cert.Lstm.Bias) (x8 : Cert.Lstm.Wgt)
    (x9 : Cert.Lstm.Bias) (x10 : Cert.Lstm.Wgt) (x11 : Cert.Lstm.Bias) (x12 : Cert.Lstm.Wgt) (x13 : Cert.Lstm.Bias) :
    Cert.ReferenceIdeal.Read.val_main_v48 (F := Ideal) x0 x1 x2 x3 x4 x5 x6 x7 x8 x9 x10 x11 x12 x13
      = Cert.Lstm.out x0 x1 x2 x3 x4 x5 x6 x7 x8 x9 x10 x11 x12 x13 := by
  funext i
  obtain ⟨r, j, rfl⟩ : ∃ (r : Fin 4096) (j : Fin 2048), i = ix2 r j := ⟨i 0, i 1, eq_ix2 i⟩
  rw [val_main_v48_apply, v40_at, v47_at x0 x1 x2 x3 x4 x5 x6 x7 x8 x9 x10 x11 x12 x13 r j]
  simp only [Ideal.mulf_def]
  rfl

/-! ## The reference's run, at the specification -/

/-- Every weakly fair execution of the reference terminates with its first result the gated output and its second the
    new cell state of the specification, at the arguments' launch contents, and the arguments unchanged. -/
theorem run (m : (ℓ : Loc nD τ sig) → Buf (Elt Ideal) ℓ) (ρ : Dev nD → PrngReg) :
    θ_run Cert.ReferenceIdeal.defs (onTc (τ := τ) (Cert.ReferenceIdeal.main (F := Ideal))) ⟨m, fun _ => 0, ρ⟩ fun r => ∀ c : Dev nD,
      r.2.mem ((c.tc : Thread nD τ).loc main_v48) = Cert.Lstm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v47) = Cert.Lstm.cell (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run Cert.ReferenceIdeal.defs _ _).mono (fun _ h c =>
    ⟨(h c).1.trans ((val_main_v48_eq m c).trans (v48_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))),
      (h c).2.1.trans ((val_main_v47_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))).trans (v47_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))),
      (h c).2.2⟩)
    (Cert.ReferenceIdeal.Value.run (F := Ideal) m ρ)

end Cert.ReferenceIdeal.RefValue

end
-- ==== Proof.KernelPieces.lean ====
/-
  What one run of the kernel's body leaves behind, as values.

  The body is run once per grid point. At a point that is neither the first nor the last of its four contraction
  steps it only advances the seven accumulators: each ends at what it held plus the product of the point's blocks.
  At the first step each accumulator is reset to zero before that, so it ends at zero plus the product. At the
  last step, after advancing them, the body combines the seven accumulators with the biases' blocks and c's block
  into the two output blocks. Every load and store of the body is of a whole buffer, so each buffer ends at the
  value of its last store, and a load after a store of the same run reads the stored value.
-/
import proofs.«148913_j57114475102581_1_alg».proof.Proof.KernelIdealFrame
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.GenP Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

variable (c : Dev nD) (i : grid0.Coords)
variable (arg3 : Memref sig .tc .vmem S512x512 .f32) (harg3 : arg3.IsWhole)
variable (arg4 : Memref sig .tc .vmem S512x512 .f32) (harg4 : arg4.IsWhole)
variable (arg5 : Memref sig .tc .vmem S512x256 .f32) (harg5 : arg5.IsWhole)
variable (arg6 : Memref sig .tc .vmem S512x256 .f32) (harg6 : arg6.IsWhole)
variable (arg7 : Memref sig .tc .vmem S512x256 .f32) (harg7 : arg7.IsWhole)
variable (arg8 : Memref sig .tc .vmem S512x256 .f32) (harg8 : arg8.IsWhole)
variable (arg9 : Memref sig .tc .vmem S512x256 .f32) (harg9 : arg9.IsWhole)
variable (arg10 : Memref sig .tc .vmem S256 .f32) (harg10 : arg10.IsWhole)
variable (arg11 : Memref sig .tc .vmem S512x256 .f32) (harg11 : arg11.IsWhole)
variable (arg12 : Memref sig .tc .vmem S256 .f32) (harg12 : arg12.IsWhole)
variable (arg13 : Memref sig .tc .vmem S512x256 .f32) (harg13 : arg13.IsWhole)
variable (arg14 : Memref sig .tc .vmem S256 .f32) (harg14 : arg14.IsWhole)
variable (arg15 : Memref sig .tc .vmem S512x256 .f32) (harg15 : arg15.IsWhole)
variable (arg16 : Memref sig .tc .vmem S256 .f32) (harg16 : arg16.IsWhole)
variable (arg17 : Memref sig .tc .vmem S512x256 .f32) (harg17 : arg17.IsWhole)
variable (arg18 : Memref sig .tc .vmem S512x256 .f32) (harg18 : arg18.IsWhole)
variable (arg19 : Memref sig .tc .vmem S512x256 .f32) (harg19 : arg19.IsWhole)
variable (arg20 : Memref sig .tc .vmem S512x256 .f32) (harg20 : arg20.IsWhole)
variable (arg21 : Memref sig .tc .vmem S512x256 .f32) (harg21 : arg21.IsWhole)
variable (arg22 : Memref sig .tc .vmem S512x256 .f32) (harg22 : arg22.IsWhole)
variable (arg23 : Memref sig .tc .vmem S512x256 .f32) (harg23 : arg23.IsWhole)
variable (arg24 : Memref sig .tc .vmem S512x256 .f32) (harg24 : arg24.IsWhole)
variable (arg25 : Memref sig .tc .vmem S512x256 .f32) (harg25 : arg25.IsWhole)
variable (x0 : Vec F S512x512 .f32) (x1 : Vec F S512x512 .f32) (x2 : Vec F S512x256 .f32) (x3 : Vec F S512x256 .f32) (x4 : Vec F S512x256 .f32) (x5 : Vec F S512x256 .f32) (x6 : Vec F S512x256 .f32) (x7 : Vec F S256 .f32) (x8 : Vec F S512x256 .f32) (x9 : Vec F S256 .f32) (x10 : Vec F S512x256 .f32) (x11 : Vec F S256 .f32) (x12 : Vec F S512x256 .f32) (x13 : Vec F S256 .f32)
variable (xs0 : Vec F S512x256 .f32) (xs1 : Vec F S512x256 .f32) (xs2 : Vec F S512x256 .f32) (xs3 : Vec F S512x256 .f32) (xs4 : Vec F S512x256 .f32) (xs5 : Vec F S512x256 .f32) (xs6 : Vec F S512x256 .f32)

/-! ## A middle step: each accumulator advances -/

section Middle
variable (hc0 : ¬cond0_0 i) (hc1 : ¬cond0_1 i)

set_option hygiene false in
/-- The body's memory operands, conditions, input blocks and carried contents, in the order every term of this case takes them. -/
local macro "atB% " f:ident : term => `($f c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 xs0 xs1 xs2 xs3 xs4 xs5 xs6)

/-- The accumulator of x · Wf after a middle step: what it held plus the product of the point's blocks. -/
theorem mid0 : atB% sout0_B_0 = k0_pay13 x0 xs0 x3 := by
  unfold sout0_B_0
  rw [View.read_writes_eq_canon _ _ _ (atB% scover0_B_0)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S512x512) hz2, View.ld_unit_zero (S := S512x256) hz2, View.ld_unit_zero (S := S256) hz1]

/-- The accumulator of x · Wi after a middle step: what it held plus the product of the point's blocks. -/
theorem mid1 : atB% sout0_B_1 = k0_pay14 x0 xs1 x4 := by
  unfold sout0_B_1
  rw [View.read_writes_eq_canon _ _ _ (atB% scover0_B_1)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S512x512) hz2, View.ld_unit_zero (S := S512x256) hz2, View.ld_unit_zero (S := S256) hz1]

/-- The accumulator of x · Wo after a middle step: what it held plus the product of the point's blocks. -/
theorem mid2 : atB% sout0_B_2 = k0_pay16 (k0_pay15 x0 xs2 x5) := by
  unfold sout0_B_2
  rw [View.read_writes_eq_canon _ _ _ (atB% scover0_B_2)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S512x512) hz2, View.ld_unit_zero (S := S512x256) hz2, View.ld_unit_zero (S := S256) hz1]

/-- The accumulator of x · Wc after a middle step: what it held plus the product of the point's blocks. -/
theorem mid3 : atB% sout0_B_3 = k0_pay17 (k0_pay11 x0) xs3 x6 := by
  unfold sout0_B_3
  rw [View.read_writes_eq_canon _ _ _ (atB% scover0_B_3)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S512x512) hz2, View.ld_unit_zero (S := S512x256) hz2, View.ld_unit_zero (S := S256) hz1]

/-- The accumulator of h · Uf after a middle step: what it held plus the product of the point's blocks. -/
theorem mid4 : atB% sout0_B_4 = k0_pay18 (k0_pay12 x1) xs4 x8 := by
  unfold sout0_B_4
  rw [View.read_writes_eq_canon _ _ _ (atB% scover0_B_4)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S512x512) hz2, View.ld_unit_zero (S := S512x256) hz2, View.ld_unit_zero (S := S256) hz1]

/-- The accumulator of h · Ui after a middle step: what it held plus the product of the point's blocks. -/
theorem mid5 : atB% sout0_B_5 = k0_pay19 (k0_pay12 x1) xs5 x10 := by
  unfold sout0_B_5
  rw [View.read_writes_eq_canon _ _ _ (atB% scover0_B_5)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S512x512) hz2, View.ld_unit_zero (S := S512x256) hz2, View.ld_unit_zero (S := S256) hz1]

/-- The accumulator of h · Uo after a middle step: what it held plus the product of the point's blocks. -/
theorem mid6 : atB% sout0_B_6 = k0_pay1 (k0_pay12 x1) xs6 (k0_pay20 x12) := by
  unfold sout0_B_6
  rw [View.read_writes_eq_canon _ _ _ (atB% scover0_B_6)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S512x512) hz2, View.ld_unit_zero (S := S512x256) hz2, View.ld_unit_zero (S := S256) hz1]

end Middle

/-! ## A first step: each accumulator is reset, then advances -/

section First
variable (hc0 : cond0_0 i) (hc1 : ¬cond0_1 i)

set_option hygiene false in
/-- The body's memory operands, conditions and input blocks, in the order every term of this case takes them. -/
local macro "atA% " f:ident : term => `($f c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13)

/-- The accumulator of x · Wf after a first step: zero plus the product of the point's blocks. -/
theorem first0 : atA% sout0_A_0 = k0_pay13 x0 (k0_pay4 (F := F)) x3 := by
  unfold sout0_A_0
  rw [View.read_writes_eq_canon _ _ _ (atA% scover0_A_0)]
  unfold kernelRun0_A
  dsimp only
  sl_unfold_words
  rw [View.canon_cons_unit_zero (S := S512x256) hz2]
  simp only [View.readCov_unit_zero (S := S512x256) _ hz2, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S512x512) hz2, View.ld_unit_zero (S := S512x256) hz2, View.ld_unit_zero (S := S256) hz1]

/-- The accumulator of x · Wi after a first step: zero plus the product of the point's blocks. -/
theorem first1 : atA% sout0_A_1 = k0_pay14 x0 (k0_pay5 (F := F)) x4 := by
  unfold sout0_A_1
  rw [View.read_writes_eq_canon _ _ _ (atA% scover0_A_1)]
  unfold kernelRun0_A
  dsimp only
  sl_unfold_words
  rw [View.canon_cons_unit_zero (S := S512x256) hz2]
  simp only [View.readCov_unit_zero (S := S512x256) _ hz2, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S512x512) hz2, View.ld_unit_zero (S := S512x256) hz2, View.ld_unit_zero (S := S256) hz1]

/-- The accumulator of x · Wo after a first step: zero plus the product of the point's blocks. -/
theorem first2 : atA% sout0_A_2 = k0_pay16 (k0_pay15 x0 (k0_pay6 (F := F)) x5) := by
  unfold sout0_A_2
  rw [View.read_writes_eq_canon _ _ _ (atA% scover0_A_2)]
  unfold kernelRun0_A
  dsimp only
  sl_unfold_words
  rw [View.canon_cons_unit_zero (S := S512x256) hz2]
  simp only [View.readCov_unit_zero (S := S512x256) _ hz2, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S512x512) hz2, View.ld_unit_zero (S := S512x256) hz2, View.ld_unit_zero (S := S256) hz1]

/-- The accumulator of x · Wc after a first step: zero plus the product of the point's blocks. -/
theorem first3 : atA% sout0_A_3 = k0_pay17 (k0_pay11 x0) (k0_pay7 (F := F)) x6 := by
  unfold sout0_A_3
  rw [View.read_writes_eq_canon _ _ _ (atA% scover0_A_3)]
  unfold kernelRun0_A
  dsimp only
  sl_unfold_words
  rw [View.canon_cons_unit_zero (S := S512x256) hz2]
  simp only [View.readCov_unit_zero (S := S512x256) _ hz2, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S512x512) hz2, View.ld_unit_zero (S := S512x256) hz2, View.ld_unit_zero (S := S256) hz1]

/-- The accumulator of h · Uf after a first step: zero plus the product of the point's blocks. -/
theorem first4 : atA% sout0_A_4 = k0_pay18 (k0_pay12 x1) (k0_pay8 (F := F)) x8 := by
  unfold sout0_A_4
  rw [View.read_writes_eq_canon _ _ _ (atA% scover0_A_4)]
  unfold kernelRun0_A
  dsimp only
  sl_unfold_words
  rw [View.canon_cons_unit_zero (S := S512x256) hz2]
  simp only [View.readCov_unit_zero (S := S512x256) _ hz2, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S512x512) hz2, View.ld_unit_zero (S := S512x256) hz2, View.ld_unit_zero (S := S256) hz1]

/-- The accumulator of h · Ui after a first step: zero plus the product of the point's blocks. -/
theorem first5 : atA% sout0_A_5 = k0_pay19 (k0_pay12 x1) (k0_pay9 (F := F)) x10 := by
  unfold sout0_A_5
  rw [View.read_writes_eq_canon _ _ _ (atA% scover0_A_5)]
  unfold kernelRun0_A
  dsimp only
  sl_unfold_words
  rw [View.canon_cons_unit_zero (S := S512x256) hz2]
  simp only [View.readCov_unit_zero (S := S512x256) _ hz2, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S512x512) hz2, View.ld_unit_zero (S := S512x256) hz2, View.ld_unit_zero (S := S256) hz1]

/-- The accumulator of h · Uo after a first step: zero plus the product of the point's blocks. -/
theorem first6 : atA% sout0_A_6 = k0_pay1 (k0_pay12 x1) (k0_pay10 (F := F)) (k0_pay20 x12) := by
  unfold sout0_A_6
  rw [View.read_writes_eq_canon _ _ _ (atA% scover0_A_6)]
  unfold kernelRun0_A
  dsimp only
  sl_unfold_words
  rw [View.canon_cons_unit_zero (S := S512x256) hz2]
  simp only [View.readCov_unit_zero (S := S512x256) _ hz2, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S512x512) hz2, View.ld_unit_zero (S := S512x256) hz2, View.ld_unit_zero (S := S256) hz1]

end First

/-! ## A last step: the accumulators advance, then the two output blocks are formed from them -/

section Last
variable (hc0 : ¬cond0_0 i) (hc1 : cond0_1 i)

set_option hygiene false in
/-- The body's memory operands, conditions, input blocks and carried contents, in the order every term of this case takes them. -/
local macro "atC% " f:ident : term => `($f c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 xs0 xs1 xs2 xs3 xs4 xs5 xs6)

/-- The block of the new cell state: from the advanced accumulators, the biases' blocks and c's block. -/
theorem last15 : atC% out0_C_15 = k0_pay2 (k0_pay13 x0 xs0 x3) (k0_pay18 (k0_pay12 x1) xs4 x8) x9 (k0_pay14 x0 xs1 x4) (k0_pay19 (k0_pay12 x1) xs5 x10) x11 (k0_pay17 (k0_pay11 x0) xs3 x6) x7 x2 := by
  unfold out0_C_15
  rw [View.read_writes_eq_canon _ _ _ (atC% cover0_C_15)]
  unfold kernelRun0_C
  dsimp only
  sl_unfold_words
  rw [View.canon_unit_zero hz2]
  simp only [View.readCov_unit_zero (S := S512x256) _ hz2, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S512x512) hz2, View.ld_unit_zero (S := S512x256) hz2, View.ld_unit_zero (S := S256) hz1]

/-- The block of the gated output. -/
theorem last14 : atC% out0_C_14 = k0_pay3 (k0_pay13 x0 xs0 x3) (k0_pay18 (k0_pay12 x1) xs4 x8) x9 (k0_pay14 x0 xs1 x4) (k0_pay19 (k0_pay12 x1) xs5 x10) x11 (k0_pay16 (k0_pay15 x0 xs2 x5)) (k0_pay1 (k0_pay12 x1) xs6 (k0_pay20 x12)) x13 (k0_pay17 (k0_pay11 x0) xs3 x6) x7 x2 := by
  unfold out0_C_14
  rw [View.read_writes_eq_canon _ _ _ (atC% cover0_C_14)]
  unfold kernelRun0_C
  dsimp only
  sl_unfold_words
  rw [View.canon_unit_zero hz2]
  simp only [View.readCov_unit_zero (S := S512x256) _ hz2, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, View.ld_unit_zero (S := S512x512) hz2, View.ld_unit_zero (S := S512x256) hz2, View.ld_unit_zero (S := S256) hz1]

end Last

end Cert.KernelIdeal.Pieces

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.KernelMath.lean ====
/-
  The arithmetic of the kernel's body, entry by entry, at the ideal values.

  Each of the seven accumulators takes one step per grid point: what it held plus the product of the point's
  [512, 512] block of x (or h) with the point's [512, 256] block of a weight matrix; a change of float format is
  the identity on extended reals, so the step at entry (p, q) is  a (p, q) + ∑ k, l (p, k) · r (k, q).
  At the last of the four contraction steps the body combines the accumulators into the two results:
      c' = σ (xf + hf + bf) · c + σ (xi + hi + bi) · tanh (xc + bc),     out = σ (xo + ho + bo) · c'.
-/
import proofs.«148913_j57114475102581_1_alg».proof.Proof.Gen.KernelIdeal.Skeleton
import proofs.«148913_j57114475102581_1_alg».proof.Proof.Spec
import proofs.«148913_j57114475102581_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Math

open Cert.KernelIdeal Cert.KernelIdeal.Gen Idealize.ShloMosaic Idealize.ShloMosaic.ValueIdx

/-- One accumulation step at entry (p, q): what was there plus row p of the left block against column q of the
    right block. -/
theorem step_apply (l : FVec Ideal S512x512 .bf16) (a : FVec Ideal S512x256 .f32) (r : FVec Ideal S512x256 .bf16)
    (p : Fin 512) (q : Fin 256) :
    addf a (matmul dot_S512x512_S512x256_S512x256_1_0_0_1_n_n none l r (constant S512x256 .f32 0x00000000#32)) (ix2 p q)
      = a (ix2 p q) + ∑ k : Fin 512, l (ix2 p k) * r (ix2 k q) := by
  rw [addf_apply]
  exact congrArg (a (ix2 p q) + ·) (PlainDot.matmul_zero_apply 512 512 256 none l r (ix2 p q))

/-- A bias of 256 entries laid along the rows of a [512, 256] block reads its entry q at (p, q). -/
theorem bias_apply (b : FVec Ideal S256 .f32) (p : Fin 512) (q : Fin 256) :
    broadcastTo S512x256 (shapeCast S1x256 b shapeCasts_S256_S1x256) broadcasts_S1x256_S512x256 (ix2 p q) = b (ix1 q) := by
  rw [broadcastTo_1b_ab_apply, shapeCast_a_1a_apply]

/-- The accumulator for x · Wf after a step. -/
theorem pay13_apply (v3 : Vec Ideal S512x512 .f32) (v7 v8 : Vec Ideal S512x256 .f32) (p : Fin 512) (q : Fin 256) :
    k0_pay13 (F := Ideal) v3 v7 v8 (ix2 p q) = v7 (ix2 p q) + ∑ k : Fin 512, v3 (ix2 p k) * v8 (ix2 k q) := by
  unfold k0_pay13 k0_pay11
  dsimp only
  rw [shapeCast_self]
  exact step_apply _ _ _ p q

/-- The accumulator for x · Wi after a step. -/
theorem pay14_apply (v3 : Vec Ideal S512x512 .f32) (v15 v16 : Vec Ideal S512x256 .f32) (p : Fin 512) (q : Fin 256) :
    k0_pay14 (F := Ideal) v3 v15 v16 (ix2 p q) = v15 (ix2 p q) + ∑ k : Fin 512, v3 (ix2 p k) * v16 (ix2 k q) := by
  unfold k0_pay14 k0_pay11
  dsimp only
  rw [shapeCast_self]
  exact step_apply _ _ _ p q

/-- The accumulator for x · Wo after a step (the value the body carries to its second half, then stores). -/
theorem pay16_apply (v3 : Vec Ideal S512x512 .f32) (v23 v24 : Vec Ideal S512x256 .f32) (p : Fin 512) (q : Fin 256) :
    k0_pay16 (F := Ideal) (k0_pay15 v3 v23 v24) (ix2 p q) = v23 (ix2 p q) + ∑ k : Fin 512, v3 (ix2 p k) * v24 (ix2 k q) := by
  unfold k0_pay16 k0_pay15 k0_pay11
  dsimp only
  rw [shapeCast_self]
  exact step_apply _ _ _ p q

/-- The accumulator for x · Wc after a step. -/
theorem pay17_apply (v3 : Vec Ideal S512x512 .f32) (v31 v32 : Vec Ideal S512x256 .f32) (p : Fin 512) (q : Fin 256) :
    k0_pay17 (F := Ideal) (k0_pay11 v3) v31 v32 (ix2 p q) = v31 (ix2 p q) + ∑ k : Fin 512, v3 (ix2 p k) * v32 (ix2 k q) := by
  unfold k0_pay17 k0_pay11
  dsimp only
  rw [shapeCast_self]
  exact step_apply _ _ _ p q

/-- The accumulator for h · Uf after a step. -/
theorem pay18_apply (v5 : Vec Ideal S512x512 .f32) (v39 v40 : Vec Ideal S512x256 .f32) (p : Fin 512) (q : Fin 256) :
    k0_pay18 (F := Ideal) (k0_pay12 v5) v39 v40 (ix2 p q) = v39 (ix2 p q) + ∑ k : Fin 512, v5 (ix2 p k) * v40 (ix2 k q) := by
  unfold k0_pay18 k0_pay12
  dsimp only
  rw [shapeCast_self]
  exact step_apply _ _ _ p q

/-- The accumulator for h · Ui after a step. -/
theorem pay19_apply (v5 : Vec Ideal S512x512 .f32) (v47 v48 : Vec Ideal S512x256 .f32) (p : Fin 512) (q : Fin 256) :
    k0_pay19 (F := Ideal) (k0_pay12 v5) v47 v48 (ix2 p q) = v47 (ix2 p q) + ∑ k : Fin 512, v5 (ix2 p k) * v48 (ix2 k q) := by
  unfold k0_pay19 k0_pay12
  dsimp only
  rw [shapeCast_self]
  exact step_apply _ _ _ p q

/-- The accumulator for h · Uo after a step. -/
theorem pay1_apply (v5 : Vec Ideal S512x512 .f32) (v55 v56 : Vec Ideal S512x256 .f32) (p : Fin 512) (q : Fin 256) :
    k0_pay1 (F := Ideal) (k0_pay12 v5) v55 (k0_pay20 v56) (ix2 p q) = v55 (ix2 p q) + ∑ k : Fin 512, v5 (ix2 p k) * v56 (ix2 k q) := by
  unfold k0_pay1 k0_pay12 k0_pay20
  dsimp only
  rw [shapeCast_self]
  exact step_apply _ _ _ p q

/-- The zero an accumulator is reset to. -/
theorem zero_apply (y : S512x256.Idx) :
    shapeCast S512x256 (broadcast S512x256 (Scalar.ofBits (F := Ideal) .f32 0x00000000#32)) shapeCasts_S512x256_S512x256 y = (0 : EReal) := by
  rw [shapeCast_self, broadcast_apply]
  exact Ideal.ofBits_zero_f32

/-- A sigmoid taken entry by entry. -/
theorem logistic_apply (x : FVec Ideal S512x256 .f32) (i : S512x256.Idx) : logistic x i = Ideal.logistic (x i) := rfl

/-- A hyperbolic tangent taken entry by entry. -/
theorem tanh_apply (x : FVec Ideal S512x256 .f32) (i : S512x256.Idx) : Idealize.ShloMosaic.tanh x i = Ideal.tanh (x i) := rfl

/-- The new cell state at entry (p, q) of the block, from the seven accumulators, the biases' blocks and c's block. -/
theorem pay2_apply (v66 v67 : Vec Ideal S512x256 .f32) (v69 : Vec Ideal S256 .f32) (v74 v75 : Vec Ideal S512x256 .f32)
    (v77 : Vec Ideal S256 .f32) (v90 : Vec Ideal S512x256 .f32) (v91 : Vec Ideal S256 .f32) (v96 : Vec Ideal S512x256 .f32)
    (p : Fin 512) (q : Fin 256) :
    k0_pay2 (F := Ideal) v66 v67 v69 v74 v75 v77 v90 v91 v96 (ix2 p q)
      = Ideal.logistic (v66 (ix2 p q) + v67 (ix2 p q) + v69 (ix1 q)) * v96 (ix2 p q)
        + Ideal.logistic (v74 (ix2 p q) + v75 (ix2 p q) + v77 (ix1 q)) * Ideal.tanh (v90 (ix2 p q) + v91 (ix1 q)) := by
  unfold k0_pay2
  rw [addf_apply, mulf_apply, mulf_apply, logistic_apply, logistic_apply, tanh_apply, addf_apply, addf_apply, addf_apply,
    addf_apply, addf_apply, bias_apply, bias_apply, bias_apply]

/-- The gated output at entry (p, q) of the block. -/
theorem pay3_apply (v66 v67 : Vec Ideal S512x256 .f32) (v69 : Vec Ideal S256 .f32) (v74 v75 : Vec Ideal S512x256 .f32)
    (v77 : Vec Ideal S256 .f32) (v82 v83 : Vec Ideal S512x256 .f32) (v85 : Vec Ideal S256 .f32)
    (v90 : Vec Ideal S512x256 .f32) (v91 : Vec Ideal S256 .f32) (v96 : Vec Ideal S512x256 .f32)
    (p : Fin 512) (q : Fin 256) :
    k0_pay3 (F := Ideal) v66 v67 v69 v74 v75 v77 v82 v83 v85 v90 v91 v96 (ix2 p q)
      = Ideal.logistic (v82 (ix2 p q) + v83 (ix2 p q) + v85 (ix1 q))
        * k0_pay2 (F := Ideal) v66 v67 v69 v74 v75 v77 v90 v91 v96 (ix2 p q) := by
  unfold k0_pay3
  rw [mulf_apply, logistic_apply, addf_apply, addf_apply, bias_apply]

/-! ## The accumulators after the four contraction steps, and the two results entry by entry -/

variable {F : FTy → Type} [FloatOps F]

/-- The accumulator for x · Wf after its four steps from zero, on the four successive blocks. -/
def accXf (X : Fin 4 → Vec F S512x512 .f32) (W : Fin 4 → Vec F S512x256 .f32) : FVec F S512x256 .f32 :=
  k0_pay13 (X 3) (k0_pay13 (X 2) (k0_pay13 (X 1) (k0_pay13 (X 0) (k0_pay4 (F := F)) (W 0)) (W 1)) (W 2)) (W 3)

/-- The accumulator for x · Wi after its four steps from zero, on the four successive blocks. -/
def accXi (X : Fin 4 → Vec F S512x512 .f32) (W : Fin 4 → Vec F S512x256 .f32) : FVec F S512x256 .f32 :=
  k0_pay14 (X 3) (k0_pay14 (X 2) (k0_pay14 (X 1) (k0_pay14 (X 0) (k0_pay5 (F := F)) (W 0)) (W 1)) (W 2)) (W 3)

/-- The accumulator for x · Wo after its four steps from zero, on the four successive blocks. -/
def accXo (X : Fin 4 → Vec F S512x512 .f32) (W : Fin 4 → Vec F S512x256 .f32) : FVec F S512x256 .f32 :=
  k0_pay16 (k0_pay15 (X 3) (k0_pay16 (k0_pay15 (X 2) (k0_pay16 (k0_pay15 (X 1) (k0_pay16 (k0_pay15 (X 0) (k0_pay6 (F := F)) (W 0))) (W 1))) (W 2))) (W 3))

/-- The accumulator for x · Wc after its four steps from zero, on the four successive blocks. -/
def accXc (X : Fin 4 → Vec F S512x512 .f32) (W : Fin 4 → Vec F S512x256 .f32) : FVec F S512x256 .f32 :=
  k0_pay17 (k0_pay11 (X 3)) (k0_pay17 (k0_pay11 (X 2)) (k0_pay17 (k0_pay11 (X 1)) (k0_pay17 (k0_pay11 (X 0)) (k0_pay7 (F := F)) (W 0)) (W 1)) (W 2)) (W 3)

/-- The accumulator for h · Uf after its four steps from zero, on the four successive blocks. -/
def accHf (H : Fin 4 → Vec F S512x512 .f32) (W : Fin 4 → Vec F S512x256 .f32) : FVec F S512x256 .f32 :=
  k0_pay18 (k0_pay12 (H 3)) (k0_pay18 (k0_pay12 (H 2)) (k0_pay18 (k0_pay12 (H 1)) (k0_pay18 (k0_pay12 (H 0)) (k0_pay8 (F := F)) (W 0)) (W 1)) (W 2)) (W 3)

/-- The accumulator for h · Ui after its four steps from zero, on the four successive blocks. -/
def accHi (H : Fin 4 → Vec F S512x512 .f32) (W : Fin 4 → Vec F S512x256 .f32) : FVec F S512x256 .f32 :=
  k0_pay19 (k0_pay12 (H 3)) (k0_pay19 (k0_pay12 (H 2)) (k0_pay19 (k0_pay12 (H 1)) (k0_pay19 (k0_pay12 (H 0)) (k0_pay9 (F := F)) (W 0)) (W 1)) (W 2)) (W 3)

/-- The accumulator for h · Uo after its four steps from zero, on the four successive blocks. -/
def accHo (H : Fin 4 → Vec F S512x512 .f32) (W : Fin 4 → Vec F S512x256 .f32) : FVec F S512x256 .f32 :=
  k0_pay1 (k0_pay12 (H 3)) (k0_pay1 (k0_pay12 (H 2)) (k0_pay1 (k0_pay12 (H 1)) (k0_pay1 (k0_pay12 (H 0)) (k0_pay10 (F := F)) (k0_pay20 (W 0))) (k0_pay20 (W 1))) (k0_pay20 (W 2))) (k0_pay20 (W 3))

/-- The four partial sums of row p against column q, one per pair of blocks, added one after the other onto zero. -/
def sum4 (X : Fin 4 → Vec Ideal S512x512 .f32) (W : Fin 4 → Vec Ideal S512x256 .f32) (p : Fin 512) (q : Fin 256) : EReal :=
  (((0 + ∑ k : Fin 512, X 0 (ix2 p k) * W 0 (ix2 k q)) + ∑ k : Fin 512, X 1 (ix2 p k) * W 1 (ix2 k q))
    + ∑ k : Fin 512, X 2 (ix2 p k) * W 2 (ix2 k q)) + ∑ k : Fin 512, X 3 (ix2 p k) * W 3 (ix2 k q)

/-- The accumulator for x · Wf at entry (p, q) is the four partial sums added onto zero. -/
theorem accXf_apply (X : Fin 4 → Vec Ideal S512x512 .f32) (W : Fin 4 → Vec Ideal S512x256 .f32) (p : Fin 512) (q : Fin 256) :
    accXf (F := Ideal) X W (ix2 p q) = sum4 X W p q := by
  unfold accXf sum4
  rw [pay13_apply, pay13_apply, pay13_apply, pay13_apply]
  exact congrArg (fun z : EReal => (((z + ∑ k : Fin 512, X 0 (ix2 p k) * W 0 (ix2 k q)) + ∑ k : Fin 512, X 1 (ix2 p k) * W 1 (ix2 k q))
    + ∑ k : Fin 512, X 2 (ix2 p k) * W 2 (ix2 k q)) + ∑ k : Fin 512, X 3 (ix2 p k) * W 3 (ix2 k q)) (zero_apply (ix2 p q))

/-- The accumulator for x · Wi at entry (p, q) is the four partial sums added onto zero. -/
theorem accXi_apply (X : Fin 4 → Vec Ideal S512x512 .f32) (W : Fin 4 → Vec Ideal S512x256 .f32) (p : Fin 512) (q : Fin 256) :
    accXi (F := Ideal) X W (ix2 p q) = sum4 X W p q := by
  unfold accXi sum4
  rw [pay14_apply, pay14_apply, pay14_apply, pay14_apply]
  exact congrArg (fun z : EReal => (((z + ∑ k : Fin 512, X 0 (ix2 p k) * W 0 (ix2 k q)) + ∑ k : Fin 512, X 1 (ix2 p k) * W 1 (ix2 k q))
    + ∑ k : Fin 512, X 2 (ix2 p k) * W 2 (ix2 k q)) + ∑ k : Fin 512, X 3 (ix2 p k) * W 3 (ix2 k q)) (zero_apply (ix2 p q))

/-- The accumulator for x · Wo at entry (p, q) is the four partial sums added onto zero. -/
theorem accXo_apply (X : Fin 4 → Vec Ideal S512x512 .f32) (W : Fin 4 → Vec Ideal S512x256 .f32) (p : Fin 512) (q : Fin 256) :
    accXo (F := Ideal) X W (ix2 p q) = sum4 X W p q := by
  unfold accXo sum4
  rw [pay16_apply, pay16_apply, pay16_apply, pay16_apply]
  exact congrArg (fun z : EReal => (((z + ∑ k : Fin 512, X 0 (ix2 p k) * W 0 (ix2 k q)) + ∑ k : Fin 512, X 1 (ix2 p k) * W 1 (ix2 k q))
    + ∑ k : Fin 512, X 2 (ix2 p k) * W 2 (ix2 k q)) + ∑ k : Fin 512, X 3 (ix2 p k) * W 3 (ix2 k q)) (zero_apply (ix2 p q))

/-- The accumulator for x · Wc at entry (p, q) is the four partial sums added onto zero. -/
theorem accXc_apply (X : Fin 4 → Vec Ideal S512x512 .f32) (W : Fin 4 → Vec Ideal S512x256 .f32) (p : Fin 512) (q : Fin 256) :
    accXc (F := Ideal) X W (ix2 p q) = sum4 X W p q := by
  unfold accXc sum4
  rw [pay17_apply, pay17_apply, pay17_apply, pay17_apply]
  exact congrArg (fun z : EReal => (((z + ∑ k : Fin 512, X 0 (ix2 p k) * W 0 (ix2 k q)) + ∑ k : Fin 512, X 1 (ix2 p k) * W 1 (ix2 k q))
    + ∑ k : Fin 512, X 2 (ix2 p k) * W 2 (ix2 k q)) + ∑ k : Fin 512, X 3 (ix2 p k) * W 3 (ix2 k q)) (zero_apply (ix2 p q))

/-- The accumulator for h · Uf at entry (p, q) is the four partial sums added onto zero. -/
theorem accHf_apply (H : Fin 4 → Vec Ideal S512x512 .f32) (W : Fin 4 → Vec Ideal S512x256 .f32) (p : Fin 512) (q : Fin 256) :
    accHf (F := Ideal) H W (ix2 p q) = sum4 H W p q := by
  unfold accHf sum4
  rw [pay18_apply, pay18_apply, pay18_apply, pay18_apply]
  exact congrArg (fun z : EReal => (((z + ∑ k : Fin 512, H 0 (ix2 p k) * W 0 (ix2 k q)) + ∑ k : Fin 512, H 1 (ix2 p k) * W 1 (ix2 k q))
    + ∑ k : Fin 512, H 2 (ix2 p k) * W 2 (ix2 k q)) + ∑ k : Fin 512, H 3 (ix2 p k) * W 3 (ix2 k q)) (zero_apply (ix2 p q))

/-- The accumulator for h · Ui at entry (p, q) is the four partial sums added onto zero. -/
theorem accHi_apply (H : Fin 4 → Vec Ideal S512x512 .f32) (W : Fin 4 → Vec Ideal S512x256 .f32) (p : Fin 512) (q : Fin 256) :
    accHi (F := Ideal) H W (ix2 p q) = sum4 H W p q := by
  unfold accHi sum4
  rw [pay19_apply, pay19_apply, pay19_apply, pay19_apply]
  exact congrArg (fun z : EReal => (((z + ∑ k : Fin 512, H 0 (ix2 p k) * W 0 (ix2 k q)) + ∑ k : Fin 512, H 1 (ix2 p k) * W 1 (ix2 k q))
    + ∑ k : Fin 512, H 2 (ix2 p k) * W 2 (ix2 k q)) + ∑ k : Fin 512, H 3 (ix2 p k) * W 3 (ix2 k q)) (zero_apply (ix2 p q))

/-- The accumulator for h · Uo at entry (p, q) is the four partial sums added onto zero. -/
theorem accHo_apply (H : Fin 4 → Vec Ideal S512x512 .f32) (W : Fin 4 → Vec Ideal S512x256 .f32) (p : Fin 512) (q : Fin 256) :
    accHo (F := Ideal) H W (ix2 p q) = sum4 H W p q := by
  unfold accHo sum4
  rw [pay1_apply, pay1_apply, pay1_apply, pay1_apply]
  exact congrArg (fun z : EReal => (((z + ∑ k : Fin 512, H 0 (ix2 p k) * W 0 (ix2 k q)) + ∑ k : Fin 512, H 1 (ix2 p k) * W 1 (ix2 k q))
    + ∑ k : Fin 512, H 2 (ix2 p k) * W 2 (ix2 k q)) + ∑ k : Fin 512, H 3 (ix2 p k) * W 3 (ix2 k q)) (zero_apply (ix2 p q))

/-- When block b of the left operand holds row r of a at the contracted indices of stretch b, and block b of the
    right operand holds column j of w there, the four partial sums are the whole contracted sum. -/
theorem sum4_eq_proj (X : Fin 4 → Vec Ideal S512x512 .f32) (W : Fin 4 → Vec Ideal S512x256 .f32)
    (a : Cert.Lstm.Act) (w : Cert.Lstm.Wgt) (r : Fin 4096) (j : Fin 2048) (p : Fin 512) (q : Fin 256)
    (hX : ∀ b k, X b (ix2 p k) = a (ix2 r (Cert.Lstm.kix b k)))
    (hW : ∀ b k, W b (ix2 k q) = w (ix2 (Cert.Lstm.kix b k) j)) :
    sum4 X W p q = Cert.Lstm.proj a w r j := by
  have e : ∀ b : Fin 4, (∑ k : Fin 512, X b (ix2 p k) * W b (ix2 k q)) = Cert.Lstm.part a w r j b := fun b =>
    Finset.sum_congr rfl (fun k _ => by rw [hX, hW])
  rw [Cert.Lstm.proj_eq_parts]
  unfold sum4
  rw [e 0, e 1, e 2, e 3]

/-- The new cell state the body computes at entry (p, q) of a block is the specification's at (r, j), when the staged
    blocks hold row r of x and h, column j of the weights, entry j of the biases and entry (r, j) of c. -/
theorem cell_entry (X H : Fin 4 → Vec Ideal S512x512 .f32) (WF WI WO WC UF UI UO : Fin 4 → Vec Ideal S512x256 .f32)
    (BC BF BI BO : Vec Ideal S256 .f32) (C : Vec Ideal S512x256 .f32)
    (x h c : Cert.Lstm.Act) (Wf Wi Wo Wc : Cert.Lstm.Wgt) (bc : Cert.Lstm.Bias) (Uf : Cert.Lstm.Wgt) (bf : Cert.Lstm.Bias)
    (Ui : Cert.Lstm.Wgt) (bi : Cert.Lstm.Bias) (Uo : Cert.Lstm.Wgt) (bo : Cert.Lstm.Bias)
    (r : Fin 4096) (j : Fin 2048) (p : Fin 512) (q : Fin 256)
    (hX : ∀ b k, X b (ix2 p k) = x (ix2 r (Cert.Lstm.kix b k))) (hH : ∀ b k, H b (ix2 p k) = h (ix2 r (Cert.Lstm.kix b k)))
    (hWF : ∀ b k, WF b (ix2 k q) = Wf (ix2 (Cert.Lstm.kix b k) j)) (hWI : ∀ b k, WI b (ix2 k q) = Wi (ix2 (Cert.Lstm.kix b k) j))
    (hWO : ∀ b k, WO b (ix2 k q) = Wo (ix2 (Cert.Lstm.kix b k) j)) (hWC : ∀ b k, WC b (ix2 k q) = Wc (ix2 (Cert.Lstm.kix b k) j))
    (hUF : ∀ b k, UF b (ix2 k q) = Uf (ix2 (Cert.Lstm.kix b k) j)) (hUI : ∀ b k, UI b (ix2 k q) = Ui (ix2 (Cert.Lstm.kix b k) j))
    (hUO : ∀ b k, UO b (ix2 k q) = Uo (ix2 (Cert.Lstm.kix b k) j))
    (hBC : BC (ix1 q) = bc (ix1 j)) (hBF : BF (ix1 q) = bf (ix1 j)) (hBI : BI (ix1 q) = bi (ix1 j)) (hBO : BO (ix1 q) = bo (ix1 j))
    (hC : C (ix2 p q) = c (ix2 r j)) :
    k0_pay2 (F := Ideal) (accXf X WF) (accHf H UF) BF (accXi X WI) (accHi H UI) BI (accXc X WC) BC C (ix2 p q)
      = Cert.Lstm.cellAt x h c Wf Wi Wo Wc bc Uf bf Ui bi Uo bo r j := by
  rw [pay2_apply, accXf_apply, accHf_apply, accXi_apply, accHi_apply, accXc_apply,
    sum4_eq_proj X WF x Wf r j p q hX hWF, sum4_eq_proj H UF h Uf r j p q hH hUF,
    sum4_eq_proj X WI x Wi r j p q hX hWI, sum4_eq_proj H UI h Ui r j p q hH hUI,
    sum4_eq_proj X WC x Wc r j p q hX hWC, hBF, hBI, hBC, hC]
  rfl

/-- The gated output the body computes at entry (p, q) of a block is the specification's at (r, j), under the same
    hypotheses. -/
theorem out_entry (X H : Fin 4 → Vec Ideal S512x512 .f32) (WF WI WO WC UF UI UO : Fin 4 → Vec Ideal S512x256 .f32)
    (BC BF BI BO : Vec Ideal S256 .f32) (C : Vec Ideal S512x256 .f32)
    (x h c : Cert.Lstm.Act) (Wf Wi Wo Wc : Cert.Lstm.Wgt) (bc : Cert.Lstm.Bias) (Uf : Cert.Lstm.Wgt) (bf : Cert.Lstm.Bias)
    (Ui : Cert.Lstm.Wgt) (bi : Cert.Lstm.Bias) (Uo : Cert.Lstm.Wgt) (bo : Cert.Lstm.Bias)
    (r : Fin 4096) (j : Fin 2048) (p : Fin 512) (q : Fin 256)
    (hX : ∀ b k, X b (ix2 p k) = x (ix2 r (Cert.Lstm.kix b k))) (hH : ∀ b k, H b (ix2 p k) = h (ix2 r (Cert.Lstm.kix b k)))
    (hWF : ∀ b k, WF b (ix2 k q) = Wf (ix2 (Cert.Lstm.kix b k) j)) (hWI : ∀ b k, WI b (ix2 k q) = Wi (ix2 (Cert.Lstm.kix b k) j))
    (hWO : ∀ b k, WO b (ix2 k q) = Wo (ix2 (Cert.Lstm.kix b k) j)) (hWC : ∀ b k, WC b (ix2 k q) = Wc (ix2 (Cert.Lstm.kix b k) j))
    (hUF : ∀ b k, UF b (ix2 k q) = Uf (ix2 (Cert.Lstm.kix b k) j)) (hUI : ∀ b k, UI b (ix2 k q) = Ui (ix2 (Cert.Lstm.kix b k) j))
    (hUO : ∀ b k, UO b (ix2 k q) = Uo (ix2 (Cert.Lstm.kix b k) j))
    (hBC : BC (ix1 q) = bc (ix1 j)) (hBF : BF (ix1 q) = bf (ix1 j)) (hBI : BI (ix1 q) = bi (ix1 j)) (hBO : BO (ix1 q) = bo (ix1 j))
    (hC : C (ix2 p q) = c (ix2 r j)) :
    k0_pay3 (F := Ideal) (accXf X WF) (accHf H UF) BF (accXi X WI) (accHi H UI) BI (accXo X WO) (accHo H UO) BO (accXc X WC) BC C (ix2 p q)
      = Cert.Lstm.outAt x h c Wf Wi Wo Wc bc Uf bf Ui bi Uo bo r j := by
  rw [pay3_apply,
    cell_entry X H WF WI WO WC UF UI UO BC BF BI BO C x h c Wf Wi Wo Wc bc Uf bf Ui bi Uo bo r j p q
      hX hH hWF hWI hWO hWC hUF hUI hUO hBC hBF hBI hBO hC,
    accXo_apply, accHo_apply, sum4_eq_proj X WO x Wo r j p q hX hWO, sum4_eq_proj H UO h Uo r j p q hH hUO, hBO]
  rfl

end Cert.KernelIdeal.Math

end
-- ==== Proof.KernelScratch.lean ====
/-
  What the seven accumulators hold when the last of a run's four contraction steps forms the two output blocks.

  The 256 grid points come in runs of four consecutive points 4·u, 4·u + 1, 4·u + 2, 4·u + 3 that share their row
  block and column block and go through the four stretches of contracted indices. At the first point of a run each
  accumulator is reset to zero and then advanced by the product of that point's blocks; at the second and third
  it is advanced from what the point before left; at the fourth it is advanced once more and the seven results
  are combined with the biases' blocks and c's block into the two output blocks. So at the fourth point each
  accumulator is the four products of the run's blocks added one after the other onto zero.
-/
import proofs.«148913_j57114475102581_1_alg».proof.Proof.KernelIdealFrame
import proofs.«148913_j57114475102581_1_alg».proof.Proof.KernelPieces
import proofs.«148913_j57114475102581_1_alg».proof.Proof.KernelMath

set_option maxRecDepth 16384

noncomputable section

namespace Cert.KernelIdeal.Scratch

open Cert.KernelIdeal Cert.KernelIdeal.Gen Cert.KernelIdeal.GenP Cert.KernelIdeal.Math Idealize.ShloMosaic Idealize.ShloMosaic.TcCoe

variable {F : FTy → Type} [FloatOps F] (m : (ℓ : Loc nD τ sig) → Buf (Elt F) ℓ) (c : Dev nD)

/-- The four points of the run of four contraction steps that point t belongs to. -/
def pt (t : Fin cfg0.N) (b : Fin 4) : Fin cfg0.N :=
  ⟨4 * (t.val / 4) + b.val, by have h := t.isLt; have hN : cfg0.N = 256 := N_0; have := b.isLt; omega⟩

/-- The contents after a point depend on the point's number only. -/
theorem outsAt0_congr (n n' : ℕ) (h : n < cfg0.N) (h' : n' < cfg0.N) (e : n = n') : outsAt0 m c n h = outsAt0 m c n' h' := by
  subst e; rfl

set_option hygiene false in
/-- A first step's theorem at point s: the point's memory operands, its two conditions and its fourteen input blocks. -/
local macro "atA% " f:ident s:ident : term => `($f (hc0 := (hcond0_0 $s).mpr h0) (hc1 := fun h => h1 ((hcond0_1 $s).mp h)) c (grid0.coords $s) (ms0_0 $s) (hs0_0 $s) (ms0_1 $s) (hs0_1 $s) (ms0_2 $s) (hs0_2 $s) (ms0_3 $s) (hs0_3 $s) (ms0_4 $s) (hs0_4 $s) (ms0_5 $s) (hs0_5 $s) (ms0_6 $s) (hs0_6 $s) (ms0_7 $s) (hs0_7 $s) (ms0_8 $s) (hs0_8 $s) (ms0_9 $s) (hs0_9 $s) (ms0_10 $s) (hs0_10 $s) (ms0_11 $s) (hs0_11 $s) (ms0_12 $s) (hs0_12 $s) (ms0_13 $s) (hs0_13 $s) (ms0_14 $s) (hs0_14 $s) (ms0_15 $s) (hs0_15 $s) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 $s) (iblk m c 1 $s) (iblk m c 2 $s) (iblk m c 3 $s) (iblk m c 4 $s) (iblk m c 5 $s) (iblk m c 6 $s) (iblk m c 7 $s) (iblk m c 8 $s) (iblk m c 9 $s) (iblk m c 10 $s) (iblk m c 11 $s) (iblk m c 12 $s) (iblk m c 13 $s))

set_option hygiene false in
/-- A middle step's theorem at point s: as above, then what the point before left in the seven accumulators. -/
local macro "atB% " f:ident s:ident : term => `($f (hc0 := fun h => h0 ((hcond0_0 $s).mp h)) (hc1 := fun h => h1 ((hcond0_1 $s).mp h)) c (grid0.coords $s) (ms0_0 $s) (hs0_0 $s) (ms0_1 $s) (hs0_1 $s) (ms0_2 $s) (hs0_2 $s) (ms0_3 $s) (hs0_3 $s) (ms0_4 $s) (hs0_4 $s) (ms0_5 $s) (hs0_5 $s) (ms0_6 $s) (hs0_6 $s) (ms0_7 $s) (hs0_7 $s) (ms0_8 $s) (hs0_8 $s) (ms0_9 $s) (hs0_9 $s) (ms0_10 $s) (hs0_10 $s) (ms0_11 $s) (hs0_11 $s) (ms0_12 $s) (hs0_12 $s) (ms0_13 $s) (hs0_13 $s) (ms0_14 $s) (hs0_14 $s) (ms0_15 $s) (hs0_15 $s) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 $s) (iblk m c 1 $s) (iblk m c 2 $s) (iblk m c 3 $s) (iblk m c 4 $s) (iblk m c 5 $s) (iblk m c 6 $s) (iblk m c 7 $s) (iblk m c 8 $s) (iblk m c 9 $s) (iblk m c 10 $s) (iblk m c 11 $s) (iblk m c 12 $s) (iblk m c 13 $s) (outsAt0 m c (Fin.val $s - 1) (Nat.lt_of_le_of_lt (Nat.sub_le _ _) (Fin.isLt $s))).2.2.1 (outsAt0 m c (Fin.val $s - 1) (Nat.lt_of_le_of_lt (Nat.sub_le _ _) (Fin.isLt $s))).2.2.2.1 (outsAt0 m c (Fin.val $s - 1) (Nat.lt_of_le_of_lt (Nat.sub_le _ _) (Fin.isLt $s))).2.2.2.2.1 (outsAt0 m c (Fin.val $s - 1) (Nat.lt_of_le_of_lt (Nat.sub_le _ _) (Fin.isLt $s))).2.2.2.2.2.1 (outsAt0 m c (Fin.val $s - 1) (Nat.lt_of_le_of_lt (Nat.sub_le _ _) (Fin.isLt $s))).2.2.2.2.2.2.1 (outsAt0 m c (Fin.val $s - 1) (Nat.lt_of_le_of_lt (Nat.sub_le _ _) (Fin.isLt $s))).2.2.2.2.2.2.2.1 (outsAt0 m c (Fin.val $s - 1) (Nat.lt_of_le_of_lt (Nat.sub_le _ _) (Fin.isLt $s))).2.2.2.2.2.2.2.2)

set_option hygiene false in
/-- A last step's theorem at point s. -/
local macro "atC% " f:ident s:ident : term => `($f (hc0 := fun h => h0 ((hcond0_0 $s).mp h)) (hc1 := (hcond0_1 $s).mpr h3) c (grid0.coords $s) (ms0_0 $s) (hs0_0 $s) (ms0_1 $s) (hs0_1 $s) (ms0_2 $s) (hs0_2 $s) (ms0_3 $s) (hs0_3 $s) (ms0_4 $s) (hs0_4 $s) (ms0_5 $s) (hs0_5 $s) (ms0_6 $s) (hs0_6 $s) (ms0_7 $s) (hs0_7 $s) (ms0_8 $s) (hs0_8 $s) (ms0_9 $s) (hs0_9 $s) (ms0_10 $s) (hs0_10 $s) (ms0_11 $s) (hs0_11 $s) (ms0_12 $s) (hs0_12 $s) (ms0_13 $s) (hs0_13 $s) (ms0_14 $s) (hs0_14 $s) (ms0_15 $s) (hs0_15 $s) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 $s) (iblk m c 1 $s) (iblk m c 2 $s) (iblk m c 3 $s) (iblk m c 4 $s) (iblk m c 5 $s) (iblk m c 6 $s) (iblk m c 7 $s) (iblk m c 8 $s) (iblk m c 9 $s) (iblk m c 10 $s) (iblk m c 11 $s) (iblk m c 12 $s) (iblk m c 13 $s) (outsAt0 m c (Fin.val $s - 1) (Nat.lt_of_le_of_lt (Nat.sub_le _ _) (Fin.isLt $s))).2.2.1 (outsAt0 m c (Fin.val $s - 1) (Nat.lt_of_le_of_lt (Nat.sub_le _ _) (Fin.isLt $s))).2.2.2.1 (outsAt0 m c (Fin.val $s - 1) (Nat.lt_of_le_of_lt (Nat.sub_le _ _) (Fin.isLt $s))).2.2.2.2.1 (outsAt0 m c (Fin.val $s - 1) (Nat.lt_of_le_of_lt (Nat.sub_le _ _) (Fin.isLt $s))).2.2.2.2.2.1 (outsAt0 m c (Fin.val $s - 1) (Nat.lt_of_le_of_lt (Nat.sub_le _ _) (Fin.isLt $s))).2.2.2.2.2.2.1 (outsAt0 m c (Fin.val $s - 1) (Nat.lt_of_le_of_lt (Nat.sub_le _ _) (Fin.isLt $s))).2.2.2.2.2.2.2.1 (outsAt0 m c (Fin.val $s - 1) (Nat.lt_of_le_of_lt (Nat.sub_le _ _) (Fin.isLt $s))).2.2.2.2.2.2.2.2)

set_option hygiene false in
/-- A last step's generated term at point s: operands, conditions, input blocks, carried contents, in the generated order. -/
local macro "genC% " f:ident s:ident : term => `($f c (grid0.coords $s) (ms0_0 $s) (hs0_0 $s) (ms0_1 $s) (hs0_1 $s) (ms0_2 $s) (hs0_2 $s) (ms0_3 $s) (hs0_3 $s) (ms0_4 $s) (hs0_4 $s) (ms0_5 $s) (hs0_5 $s) (ms0_6 $s) (hs0_6 $s) (ms0_7 $s) (hs0_7 $s) (ms0_8 $s) (hs0_8 $s) (ms0_9 $s) (hs0_9 $s) (ms0_10 $s) (hs0_10 $s) (ms0_11 $s) (hs0_11 $s) (ms0_12 $s) (hs0_12 $s) (ms0_13 $s) (hs0_13 $s) (ms0_14 $s) (hs0_14 $s) (ms0_15 $s) (hs0_15 $s) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 $s).mp h)) ((hcond0_1 $s).mpr h3) (iblk m c 0 $s) (iblk m c 1 $s) (iblk m c 2 $s) (iblk m c 3 $s) (iblk m c 4 $s) (iblk m c 5 $s) (iblk m c 6 $s) (iblk m c 7 $s) (iblk m c 8 $s) (iblk m c 9 $s) (iblk m c 10 $s) (iblk m c 11 $s) (iblk m c 12 $s) (iblk m c 13 $s) (outsAt0 m c (Fin.val $s - 1) (Nat.lt_of_le_of_lt (Nat.sub_le _ _) (Fin.isLt $s))).2.2.1 (outsAt0 m c (Fin.val $s - 1) (Nat.lt_of_le_of_lt (Nat.sub_le _ _) (Fin.isLt $s))).2.2.2.1 (outsAt0 m c (Fin.val $s - 1) (Nat.lt_of_le_of_lt (Nat.sub_le _ _) (Fin.isLt $s))).2.2.2.2.1 (outsAt0 m c (Fin.val $s - 1) (Nat.lt_of_le_of_lt (Nat.sub_le _ _) (Fin.isLt $s))).2.2.2.2.2.1 (outsAt0 m c (Fin.val $s - 1) (Nat.lt_of_le_of_lt (Nat.sub_le _ _) (Fin.isLt $s))).2.2.2.2.2.2.1 (outsAt0 m c (Fin.val $s - 1) (Nat.lt_of_le_of_lt (Nat.sub_le _ _) (Fin.isLt $s))).2.2.2.2.2.2.2.1 (outsAt0 m c (Fin.val $s - 1) (Nat.lt_of_le_of_lt (Nat.sub_le _ _) (Fin.isLt $s))).2.2.2.2.2.2.2.2)

/-! ## The first step of a run: reset, then one product -/

/-- After the first point of a run the accumulator of x · Wf is zero advanced by that point's blocks. -/
theorem reset0 (s : Fin cfg0.N) (h0 : s.val % 4 = 0) :
    (outsAt0 m c s.val s.isLt).2.2.1 = k0_pay13 (iblk m c 0 s) (k0_pay4 (F := F)) (iblk m c 3 s) := by
  have h1 : ¬s.val % 4 = 3 := by omega
  rw [outsAt0_A m c s h0 h1]
  dsimp only
  exact atA% Pieces.first0 s

/-- After the first point of a run the accumulator of x · Wi is zero advanced by that point's blocks. -/
theorem reset1 (s : Fin cfg0.N) (h0 : s.val % 4 = 0) :
    (outsAt0 m c s.val s.isLt).2.2.2.1 = k0_pay14 (iblk m c 0 s) (k0_pay5 (F := F)) (iblk m c 4 s) := by
  have h1 : ¬s.val % 4 = 3 := by omega
  rw [outsAt0_A m c s h0 h1]
  dsimp only
  exact atA% Pieces.first1 s

/-- After the first point of a run the accumulator of x · Wo is zero advanced by that point's blocks. -/
theorem reset2 (s : Fin cfg0.N) (h0 : s.val % 4 = 0) :
    (outsAt0 m c s.val s.isLt).2.2.2.2.1 = k0_pay16 (k0_pay15 (iblk m c 0 s) (k0_pay6 (F := F)) (iblk m c 5 s)) := by
  have h1 : ¬s.val % 4 = 3 := by omega
  rw [outsAt0_A m c s h0 h1]
  dsimp only
  exact atA% Pieces.first2 s

/-- After the first point of a run the accumulator of x · Wc is zero advanced by that point's blocks. -/
theorem reset3 (s : Fin cfg0.N) (h0 : s.val % 4 = 0) :
    (outsAt0 m c s.val s.isLt).2.2.2.2.2.1 = k0_pay17 (k0_pay11 (iblk m c 0 s)) (k0_pay7 (F := F)) (iblk m c 6 s) := by
  have h1 : ¬s.val % 4 = 3 := by omega
  rw [outsAt0_A m c s h0 h1]
  dsimp only
  exact atA% Pieces.first3 s

/-- After the first point of a run the accumulator of h · Uf is zero advanced by that point's blocks. -/
theorem reset4 (s : Fin cfg0.N) (h0 : s.val % 4 = 0) :
    (outsAt0 m c s.val s.isLt).2.2.2.2.2.2.1 = k0_pay18 (k0_pay12 (iblk m c 1 s)) (k0_pay8 (F := F)) (iblk m c 8 s) := by
  have h1 : ¬s.val % 4 = 3 := by omega
  rw [outsAt0_A m c s h0 h1]
  dsimp only
  exact atA% Pieces.first4 s

/-- After the first point of a run the accumulator of h · Ui is zero advanced by that point's blocks. -/
theorem reset5 (s : Fin cfg0.N) (h0 : s.val % 4 = 0) :
    (outsAt0 m c s.val s.isLt).2.2.2.2.2.2.2.1 = k0_pay19 (k0_pay12 (iblk m c 1 s)) (k0_pay9 (F := F)) (iblk m c 10 s) := by
  have h1 : ¬s.val % 4 = 3 := by omega
  rw [outsAt0_A m c s h0 h1]
  dsimp only
  exact atA% Pieces.first5 s

/-- After the first point of a run the accumulator of h · Uo is zero advanced by that point's blocks. -/
theorem reset6 (s : Fin cfg0.N) (h0 : s.val % 4 = 0) :
    (outsAt0 m c s.val s.isLt).2.2.2.2.2.2.2.2 = k0_pay1 (k0_pay12 (iblk m c 1 s)) (k0_pay10 (F := F)) (k0_pay20 (iblk m c 12 s)) := by
  have h1 : ¬s.val % 4 = 3 := by omega
  rw [outsAt0_A m c s h0 h1]
  dsimp only
  exact atA% Pieces.first6 s

/-! ## A middle step: one more product onto what the point before left -/

/-- After a middle point of a run the accumulator of x · Wf is what the point before left, advanced by this point's blocks. -/
theorem step0 (s : Fin cfg0.N) (h0 : ¬s.val % 4 = 0) (h1 : ¬s.val % 4 = 3) :
    (outsAt0 m c s.val s.isLt).2.2.1 = k0_pay13 (iblk m c 0 s) (outsAt0 m c (Fin.val s - 1) (Nat.lt_of_le_of_lt (Nat.sub_le _ _) (Fin.isLt s))).2.2.1 (iblk m c 3 s) := by
  rw [outsAt0_B m c s h0 h1]
  dsimp only
  exact atB% Pieces.mid0 s

/-- After a middle point of a run the accumulator of x · Wi is what the point before left, advanced by this point's blocks. -/
theorem step1 (s : Fin cfg0.N) (h0 : ¬s.val % 4 = 0) (h1 : ¬s.val % 4 = 3) :
    (outsAt0 m c s.val s.isLt).2.2.2.1 = k0_pay14 (iblk m c 0 s) (outsAt0 m c (Fin.val s - 1) (Nat.lt_of_le_of_lt (Nat.sub_le _ _) (Fin.isLt s))).2.2.2.1 (iblk m c 4 s) := by
  rw [outsAt0_B m c s h0 h1]
  dsimp only
  exact atB% Pieces.mid1 s

/-- After a middle point of a run the accumulator of x · Wo is what the point before left, advanced by this point's blocks. -/
theorem step2 (s : Fin cfg0.N) (h0 : ¬s.val % 4 = 0) (h1 : ¬s.val % 4 = 3) :
    (outsAt0 m c s.val s.isLt).2.2.2.2.1 = k0_pay16 (k0_pay15 (iblk m c 0 s) (outsAt0 m c (Fin.val s - 1) (Nat.lt_of_le_of_lt (Nat.sub_le _ _) (Fin.isLt s))).2.2.2.2.1 (iblk m c 5 s)) := by
  rw [outsAt0_B m c s h0 h1]
  dsimp only
  exact atB% Pieces.mid2 s

/-- After a middle point of a run the accumulator of x · Wc is what the point before left, advanced by this point's blocks. -/
theorem step3 (s : Fin cfg0.N) (h0 : ¬s.val % 4 = 0) (h1 : ¬s.val % 4 = 3) :
    (outsAt0 m c s.val s.isLt).2.2.2.2.2.1 = k0_pay17 (k0_pay11 (iblk m c 0 s)) (outsAt0 m c (Fin.val s - 1) (Nat.lt_of_le_of_lt (Nat.sub_le _ _) (Fin.isLt s))).2.2.2.2.2.1 (iblk m c 6 s) := by
  rw [outsAt0_B m c s h0 h1]
  dsimp only
  exact atB% Pieces.mid3 s

/-- After a middle point of a run the accumulator of h · Uf is what the point before left, advanced by this point's blocks. -/
theorem step4 (s : Fin cfg0.N) (h0 : ¬s.val % 4 = 0) (h1 : ¬s.val % 4 = 3) :
    (outsAt0 m c s.val s.isLt).2.2.2.2.2.2.1 = k0_pay18 (k0_pay12 (iblk m c 1 s)) (outsAt0 m c (Fin.val s - 1) (Nat.lt_of_le_of_lt (Nat.sub_le _ _) (Fin.isLt s))).2.2.2.2.2.2.1 (iblk m c 8 s) := by
  rw [outsAt0_B m c s h0 h1]
  dsimp only
  exact atB% Pieces.mid4 s

/-- After a middle point of a run the accumulator of h · Ui is what the point before left, advanced by this point's blocks. -/
theorem step5 (s : Fin cfg0.N) (h0 : ¬s.val % 4 = 0) (h1 : ¬s.val % 4 = 3) :
    (outsAt0 m c s.val s.isLt).2.2.2.2.2.2.2.1 = k0_pay19 (k0_pay12 (iblk m c 1 s)) (outsAt0 m c (Fin.val s - 1) (Nat.lt_of_le_of_lt (Nat.sub_le _ _) (Fin.isLt s))).2.2.2.2.2.2.2.1 (iblk m c 10 s) := by
  rw [outsAt0_B m c s h0 h1]
  dsimp only
  exact atB% Pieces.mid5 s

/-- After a middle point of a run the accumulator of h · Uo is what the point before left, advanced by this point's blocks. -/
theorem step6 (s : Fin cfg0.N) (h0 : ¬s.val % 4 = 0) (h1 : ¬s.val % 4 = 3) :
    (outsAt0 m c s.val s.isLt).2.2.2.2.2.2.2.2 = k0_pay1 (k0_pay12 (iblk m c 1 s)) (outsAt0 m c (Fin.val s - 1) (Nat.lt_of_le_of_lt (Nat.sub_le _ _) (Fin.isLt s))).2.2.2.2.2.2.2.2 (k0_pay20 (iblk m c 12 s)) := by
  rw [outsAt0_B m c s h0 h1]
  dsimp only
  exact atB% Pieces.mid6 s

/-! ## The first three steps of a run together -/

theorem pt_val (t : Fin cfg0.N) (b : Fin 4) : (pt t b).val = 4 * (t.val / 4) + b.val := rfl

/-- After the third point of t's run the accumulator of x · Wf is the first three products added onto zero. -/
theorem three0 (t : Fin cfg0.N) :
    (outsAt0 m c (pt t 2).val (pt t 2).isLt).2.2.1
      = k0_pay13 (iblk m c 0 (pt t 2)) (k0_pay13 (iblk m c 0 (pt t 1)) (k0_pay13 (iblk m c 0 (pt t 0)) (k0_pay4 (F := F)) (iblk m c 3 (pt t 0))) (iblk m c 3 (pt t 1))) (iblk m c 3 (pt t 2)) := by
  have e1 : (pt t 2).val - 1 = (pt t 1).val := by show 4 * (t.val / 4) + 2 - 1 = 4 * (t.val / 4) + 1; omega
  have e0 : (pt t 1).val - 1 = (pt t 0).val := by show 4 * (t.val / 4) + 1 - 1 = 4 * (t.val / 4) + 0; omega
  rw [step0 m c (pt t 2) (by show ¬(4 * (t.val / 4) + 2) % 4 = 0; omega) (by show ¬(4 * (t.val / 4) + 2) % 4 = 3; omega),
    outsAt0_congr m c ((pt t 2).val - 1) (pt t 1).val _ (pt t 1).isLt e1,
    step0 m c (pt t 1) (by show ¬(4 * (t.val / 4) + 1) % 4 = 0; omega) (by show ¬(4 * (t.val / 4) + 1) % 4 = 3; omega),
    outsAt0_congr m c ((pt t 1).val - 1) (pt t 0).val _ (pt t 0).isLt e0,
    reset0 m c (pt t 0) (by show (4 * (t.val / 4) + 0) % 4 = 0; omega)]

/-- After the third point of t's run the accumulator of x · Wi is the first three products added onto zero. -/
theorem three1 (t : Fin cfg0.N) :
    (outsAt0 m c (pt t 2).val (pt t 2).isLt).2.2.2.1
      = k0_pay14 (iblk m c 0 (pt t 2)) (k0_pay14 (iblk m c 0 (pt t 1)) (k0_pay14 (iblk m c 0 (pt t 0)) (k0_pay5 (F := F)) (iblk m c 4 (pt t 0))) (iblk m c 4 (pt t 1))) (iblk m c 4 (pt t 2)) := by
  have e1 : (pt t 2).val - 1 = (pt t 1).val := by show 4 * (t.val / 4) + 2 - 1 = 4 * (t.val / 4) + 1; omega
  have e0 : (pt t 1).val - 1 = (pt t 0).val := by show 4 * (t.val / 4) + 1 - 1 = 4 * (t.val / 4) + 0; omega
  rw [step1 m c (pt t 2) (by show ¬(4 * (t.val / 4) + 2) % 4 = 0; omega) (by show ¬(4 * (t.val / 4) + 2) % 4 = 3; omega),
    outsAt0_congr m c ((pt t 2).val - 1) (pt t 1).val _ (pt t 1).isLt e1,
    step1 m c (pt t 1) (by show ¬(4 * (t.val / 4) + 1) % 4 = 0; omega) (by show ¬(4 * (t.val / 4) + 1) % 4 = 3; omega),
    outsAt0_congr m c ((pt t 1).val - 1) (pt t 0).val _ (pt t 0).isLt e0,
    reset1 m c (pt t 0) (by show (4 * (t.val / 4) + 0) % 4 = 0; omega)]

/-- After the third point of t's run the accumulator of x · Wo is the first three products added onto zero. -/
theorem three2 (t : Fin cfg0.N) :
    (outsAt0 m c (pt t 2).val (pt t 2).isLt).2.2.2.2.1
      = k0_pay16 (k0_pay15 (iblk m c 0 (pt t 2)) (k0_pay16 (k0_pay15 (iblk m c 0 (pt t 1)) (k0_pay16 (k0_pay15 (iblk m c 0 (pt t 0)) (k0_pay6 (F := F)) (iblk m c 5 (pt t 0)))) (iblk m c 5 (pt t 1)))) (iblk m c 5 (pt t 2))) := by
  have e1 : (pt t 2).val - 1 = (pt t 1).val := by show 4 * (t.val / 4) + 2 - 1 = 4 * (t.val / 4) + 1; omega
  have e0 : (pt t 1).val - 1 = (pt t 0).val := by show 4 * (t.val / 4) + 1 - 1 = 4 * (t.val / 4) + 0; omega
  rw [step2 m c (pt t 2) (by show ¬(4 * (t.val / 4) + 2) % 4 = 0; omega) (by show ¬(4 * (t.val / 4) + 2) % 4 = 3; omega),
    outsAt0_congr m c ((pt t 2).val - 1) (pt t 1).val _ (pt t 1).isLt e1,
    step2 m c (pt t 1) (by show ¬(4 * (t.val / 4) + 1) % 4 = 0; omega) (by show ¬(4 * (t.val / 4) + 1) % 4 = 3; omega),
    outsAt0_congr m c ((pt t 1).val - 1) (pt t 0).val _ (pt t 0).isLt e0,
    reset2 m c (pt t 0) (by show (4 * (t.val / 4) + 0) % 4 = 0; omega)]

/-- After the third point of t's run the accumulator of x · Wc is the first three products added onto zero. -/
theorem three3 (t : Fin cfg0.N) :
    (outsAt0 m c (pt t 2).val (pt t 2).isLt).2.2.2.2.2.1
      = k0_pay17 (k0_pay11 (iblk m c 0 (pt t 2))) (k0_pay17 (k0_pay11 (iblk m c 0 (pt t 1))) (k0_pay17 (k0_pay11 (iblk m c 0 (pt t 0))) (k0_pay7 (F := F)) (iblk m c 6 (pt t 0))) (iblk m c 6 (pt t 1))) (iblk m c 6 (pt t 2)) := by
  have e1 : (pt t 2).val - 1 = (pt t 1).val := by show 4 * (t.val / 4) + 2 - 1 = 4 * (t.val / 4) + 1; omega
  have e0 : (pt t 1).val - 1 = (pt t 0).val := by show 4 * (t.val / 4) + 1 - 1 = 4 * (t.val / 4) + 0; omega
  rw [step3 m c (pt t 2) (by show ¬(4 * (t.val / 4) + 2) % 4 = 0; omega) (by show ¬(4 * (t.val / 4) + 2) % 4 = 3; omega),
    outsAt0_congr m c ((pt t 2).val - 1) (pt t 1).val _ (pt t 1).isLt e1,
    step3 m c (pt t 1) (by show ¬(4 * (t.val / 4) + 1) % 4 = 0; omega) (by show ¬(4 * (t.val / 4) + 1) % 4 = 3; omega),
    outsAt0_congr m c ((pt t 1).val - 1) (pt t 0).val _ (pt t 0).isLt e0,
    reset3 m c (pt t 0) (by show (4 * (t.val / 4) + 0) % 4 = 0; omega)]

/-- After the third point of t's run the accumulator of h · Uf is the first three products added onto zero. -/
theorem three4 (t : Fin cfg0.N) :
    (outsAt0 m c (pt t 2).val (pt t 2).isLt).2.2.2.2.2.2.1
      = k0_pay18 (k0_pay12 (iblk m c 1 (pt t 2))) (k0_pay18 (k0_pay12 (iblk m c 1 (pt t 1))) (k0_pay18 (k0_pay12 (iblk m c 1 (pt t 0))) (k0_pay8 (F := F)) (iblk m c 8 (pt t 0))) (iblk m c 8 (pt t 1))) (iblk m c 8 (pt t 2)) := by
  have e1 : (pt t 2).val - 1 = (pt t 1).val := by show 4 * (t.val / 4) + 2 - 1 = 4 * (t.val / 4) + 1; omega
  have e0 : (pt t 1).val - 1 = (pt t 0).val := by show 4 * (t.val / 4) + 1 - 1 = 4 * (t.val / 4) + 0; omega
  rw [step4 m c (pt t 2) (by show ¬(4 * (t.val / 4) + 2) % 4 = 0; omega) (by show ¬(4 * (t.val / 4) + 2) % 4 = 3; omega),
    outsAt0_congr m c ((pt t 2).val - 1) (pt t 1).val _ (pt t 1).isLt e1,
    step4 m c (pt t 1) (by show ¬(4 * (t.val / 4) + 1) % 4 = 0; omega) (by show ¬(4 * (t.val / 4) + 1) % 4 = 3; omega),
    outsAt0_congr m c ((pt t 1).val - 1) (pt t 0).val _ (pt t 0).isLt e0,
    reset4 m c (pt t 0) (by show (4 * (t.val / 4) + 0) % 4 = 0; omega)]

/-- After the third point of t's run the accumulator of h · Ui is the first three products added onto zero. -/
theorem three5 (t : Fin cfg0.N) :
    (outsAt0 m c (pt t 2).val (pt t 2).isLt).2.2.2.2.2.2.2.1
      = k0_pay19 (k0_pay12 (iblk m c 1 (pt t 2))) (k0_pay19 (k0_pay12 (iblk m c 1 (pt t 1))) (k0_pay19 (k0_pay12 (iblk m c 1 (pt t 0))) (k0_pay9 (F := F)) (iblk m c 10 (pt t 0))) (iblk m c 10 (pt t 1))) (iblk m c 10 (pt t 2)) := by
  have e1 : (pt t 2).val - 1 = (pt t 1).val := by show 4 * (t.val / 4) + 2 - 1 = 4 * (t.val / 4) + 1; omega
  have e0 : (pt t 1).val - 1 = (pt t 0).val := by show 4 * (t.val / 4) + 1 - 1 = 4 * (t.val / 4) + 0; omega
  rw [step5 m c (pt t 2) (by show ¬(4 * (t.val / 4) + 2) % 4 = 0; omega) (by show ¬(4 * (t.val / 4) + 2) % 4 = 3; omega),
    outsAt0_congr m c ((pt t 2).val - 1) (pt t 1).val _ (pt t 1).isLt e1,
    step5 m c (pt t 1) (by show ¬(4 * (t.val / 4) + 1) % 4 = 0; omega) (by show ¬(4 * (t.val / 4) + 1) % 4 = 3; omega),
    outsAt0_congr m c ((pt t 1).val - 1) (pt t 0).val _ (pt t 0).isLt e0,
    reset5 m c (pt t 0) (by show (4 * (t.val / 4) + 0) % 4 = 0; omega)]

/-- After the third point of t's run the accumulator of h · Uo is the first three products added onto zero. -/
theorem three6 (t : Fin cfg0.N) :
    (outsAt0 m c (pt t 2).val (pt t 2).isLt).2.2.2.2.2.2.2.2
      = k0_pay1 (k0_pay12 (iblk m c 1 (pt t 2))) (k0_pay1 (k0_pay12 (iblk m c 1 (pt t 1))) (k0_pay1 (k0_pay12 (iblk m c 1 (pt t 0))) (k0_pay10 (F := F)) (k0_pay20 (iblk m c 12 (pt t 0)))) (k0_pay20 (iblk m c 12 (pt t 1)))) (k0_pay20 (iblk m c 12 (pt t 2))) := by
  have e1 : (pt t 2).val - 1 = (pt t 1).val := by show 4 * (t.val / 4) + 2 - 1 = 4 * (t.val / 4) + 1; omega
  have e0 : (pt t 1).val - 1 = (pt t 0).val := by show 4 * (t.val / 4) + 1 - 1 = 4 * (t.val / 4) + 0; omega
  rw [step6 m c (pt t 2) (by show ¬(4 * (t.val / 4) + 2) % 4 = 0; omega) (by show ¬(4 * (t.val / 4) + 2) % 4 = 3; omega),
    outsAt0_congr m c ((pt t 2).val - 1) (pt t 1).val _ (pt t 1).isLt e1,
    step6 m c (pt t 1) (by show ¬(4 * (t.val / 4) + 1) % 4 = 0; omega) (by show ¬(4 * (t.val / 4) + 1) % 4 = 3; omega),
    outsAt0_congr m c ((pt t 1).val - 1) (pt t 0).val _ (pt t 0).isLt e0,
    reset6 m c (pt t 0) (by show (4 * (t.val / 4) + 0) % 4 = 0; omega)]

/-! ## The last step of a run: the two output blocks from the run's blocks -/

/-- The first output block (the gated output) the last point of a run forms, from the blocks of the run's four points. -/
theorem last14_at (t : Fin cfg0.N) (h0 : ¬t.val % 4 = 0) (h3 : t.val % 4 = 3) :
    genC% out0_C_14 t
      = k0_pay3 (accXf (fun b => iblk m c 0 (pt t b)) (fun b => iblk m c 3 (pt t b))) (accHf (fun b => iblk m c 1 (pt t b)) (fun b => iblk m c 8 (pt t b))) (iblk m c 9 t) (accXi (fun b => iblk m c 0 (pt t b)) (fun b => iblk m c 4 (pt t b))) (accHi (fun b => iblk m c 1 (pt t b)) (fun b => iblk m c 10 (pt t b))) (iblk m c 11 t) (accXo (fun b => iblk m c 0 (pt t b)) (fun b => iblk m c 5 (pt t b))) (accHo (fun b => iblk m c 1 (pt t b)) (fun b => iblk m c 12 (pt t b))) (iblk m c 13 t) (accXc (fun b => iblk m c 0 (pt t b)) (fun b => iblk m c 6 (pt t b))) (iblk m c 7 t) (iblk m c 2 t) := by
  have et : pt t 3 = t := Fin.ext (by show 4 * (t.val / 4) + 3 = t.val; omega)
  have e2 : t.val - 1 = (pt t 2).val := by show t.val - 1 = 4 * (t.val / 4) + 2; omega
  refine (atC% Pieces.last14 t).trans ?_
  rw [outsAt0_congr m c (t.val - 1) (pt t 2).val _ (pt t 2).isLt e2, three0 m c t, three1 m c t, three2 m c t, three3 m c t, three4 m c t, three5 m c t, three6 m c t]
  unfold accXf accXi accXo accXc accHf accHi accHo
  dsimp only
  rw [et]

/-- The second output block (the new cell state) the last point of a run forms, from the blocks of the run's four points. -/
theorem last15_at (t : Fin cfg0.N) (h0 : ¬t.val % 4 = 0) (h3 : t.val % 4 = 3) :
    genC% out0_C_15 t
      = k0_pay2 (accXf (fun b => iblk m c 0 (pt t b)) (fun b => iblk m c 3 (pt t b))) (accHf (fun b => iblk m c 1 (pt t b)) (fun b => iblk m c 8 (pt t b))) (iblk m c 9 t) (accXi (fun b => iblk m c 0 (pt t b)) (fun b => iblk m c 4 (pt t b))) (accHi (fun b => iblk m c 1 (pt t b)) (fun b => iblk m c 10 (pt t b))) (iblk m c 11 t) (accXc (fun b => iblk m c 0 (pt t b)) (fun b => iblk m c 6 (pt t b))) (iblk m c 7 t) (iblk m c 2 t) := by
  have et : pt t 3 = t := Fin.ext (by show 4 * (t.val / 4) + 3 = t.val; omega)
  have e2 : t.val - 1 = (pt t 2).val := by show t.val - 1 = 4 * (t.val / 4) + 2; omega
  refine (atC% Pieces.last15 t).trans ?_
  rw [outsAt0_congr m c (t.val - 1) (pt t 2).val _ (pt t 2).isLt e2, three0 m c t, three1 m c t, three3 m c t, three4 m c t, three5 m c t]
  unfold accXf accXi accXc accHf accHi
  dsimp only
  rw [et]

/-- What the first output's staging buffer holds after the last point of a run. -/
theorem out14_at (t : Fin cfg0.N) (h0 : ¬t.val % 4 = 0) (h3 : t.val % 4 = 3) :
    (outsAt0 m c t.val t.isLt).1
      = k0_pay3 (accXf (fun b => iblk m c 0 (pt t b)) (fun b => iblk m c 3 (pt t b))) (accHf (fun b => iblk m c 1 (pt t b)) (fun b => iblk m c 8 (pt t b))) (iblk m c 9 t) (accXi (fun b => iblk m c 0 (pt t b)) (fun b => iblk m c 4 (pt t b))) (accHi (fun b => iblk m c 1 (pt t b)) (fun b => iblk m c 10 (pt t b))) (iblk m c 11 t) (accXo (fun b => iblk m c 0 (pt t b)) (fun b => iblk m c 5 (pt t b))) (accHo (fun b => iblk m c 1 (pt t b)) (fun b => iblk m c 12 (pt t b))) (iblk m c 13 t) (accXc (fun b => iblk m c 0 (pt t b)) (fun b => iblk m c 6 (pt t b))) (iblk m c 7 t) (iblk m c 2 t) :=
  (congrArg (fun x => x.1) (outsAt0_C m c t h0 h3)).trans (last14_at m c t h0 h3)

/-- What the second output's staging buffer holds after the last point of a run. -/
theorem out15_at (t : Fin cfg0.N) (h0 : ¬t.val % 4 = 0) (h3 : t.val % 4 = 3) :
    (outsAt0 m c t.val t.isLt).2.1
      = k0_pay2 (accXf (fun b => iblk m c 0 (pt t b)) (fun b => iblk m c 3 (pt t b))) (accHf (fun b => iblk m c 1 (pt t b)) (fun b => iblk m c 8 (pt t b))) (iblk m c 9 t) (accXi (fun b => iblk m c 0 (pt t b)) (fun b => iblk m c 4 (pt t b))) (accHi (fun b => iblk m c 1 (pt t b)) (fun b => iblk m c 10 (pt t b))) (iblk m c 11 t) (accXc (fun b => iblk m c 0 (pt t b)) (fun b => iblk m c 6 (pt t b))) (iblk m c 7 t) (iblk m c 2 t) :=
  (congrArg (fun x => x.2.1) (outsAt0_C m c t h0 h3)).trans (last15_at m c t h0 h3)

end Cert.KernelIdeal.Scratch

end
-- ==== Proof.KernelBlocks.lean ====
/-
  Which entries of the argument arrays each staged block holds, and that the blocks the kernel writes back
  cover the two result arrays.

  The kernel runs over a grid of 8 · 8 · 4 = 256 points. Point t = 32·a + 4·n + k has row block a = t / 32
  (512 rows each), column block n = (t / 4) % 8 (256 columns each) and contracted stretch k = t % 4 (512
  indices each). At point t
    · the blocks of x and h are rows 512·a … 512·a + 511 against contracted indices 512·k … 512·k + 511;
    · the block of c, and the blocks of the two results, are those rows against columns 256·n … 256·n + 255;
    · the block of each weight matrix is contracted indices 512·k … against columns 256·n …;
    · the block of each bias is entries 256·n … 256·n + 255.
  The results are written back at the points with k = 3 only; for row r and column j the point
  32·(r / 512) + 4·(j / 256) + 3 is such a point and its block holds (r, j).
-/
import proofs.«148913_j57114475102581_1_alg».proof.Proof.Gen.KernelIdeal.Frame.Runs
import Idealize.ShloMosaic.Lib.Pipeline.Value
import Idealize.ShloMosaic.Lib.ValueIdx
import proofs.«148913_j57114475102581_1_alg».proof.Proof.Spec

noncomputable section

namespace Cert.KernelIdeal.Blocks

open Cert.KernelIdeal Cert.KernelIdeal.Gen Idealize.ShloMosaic Idealize.ShloMosaic.TcCoe Idealize.ShloMosaic.ValueIdx

variable {F : FTy → Type} [FloatOps F] (m : (ℓ : Loc nD τ sig) → Buf (Elt F) ℓ)

/-! ## The coordinates of a point's blocks -/

/-- Row p of point t's row block, as a row of the whole batch. -/
def rowOf (t : Fin cfg0.N) (p : Fin 512) : Fin 4096 :=
  ⟨512 * (t.val / 32) + p.val, by have h := t.isLt; have hN : cfg0.N = 256 := N_0; have := p.isLt; omega⟩

/-- Column q of point t's column block, as a hidden unit. -/
def colOf (t : Fin cfg0.N) (q : Fin 256) : Fin 2048 :=
  ⟨256 * ((t.val / 4) % 8) + q.val, by have := q.isLt; omega⟩

/-- Index k of point t's stretch of contracted indices, as a contracted index. -/
def conOf (t : Fin cfg0.N) (k : Fin 512) : Fin 2048 :=
  ⟨512 * (t.val % 4) + k.val, by have := k.isLt; omega⟩

/-! ## The block indices, decided once over the 256 points -/

theorem idx0 : ∀ t : Fin cfg0.N, win0_0.index t 0 = t.val / 32 ∧ win0_0.index t 1 = t.val % 4 :=
  (by decide +kernel : ∀ t : Fin grid0.N, win0_0.index t 0 = t.val / 32 ∧ win0_0.index t 1 = t.val % 4)
theorem idx1 : ∀ t : Fin cfg0.N, win0_1.index t 0 = t.val / 32 ∧ win0_1.index t 1 = t.val % 4 :=
  (by decide +kernel : ∀ t : Fin grid0.N, win0_1.index t 0 = t.val / 32 ∧ win0_1.index t 1 = t.val % 4)
theorem idx2 : ∀ t : Fin cfg0.N, win0_2.index t 0 = t.val / 32 ∧ win0_2.index t 1 = (t.val / 4) % 8 :=
  (by decide +kernel : ∀ t : Fin grid0.N, win0_2.index t 0 = t.val / 32 ∧ win0_2.index t 1 = (t.val / 4) % 8)
theorem idx3 : ∀ t : Fin cfg0.N, win0_3.index t 0 = t.val % 4 ∧ win0_3.index t 1 = (t.val / 4) % 8 :=
  (by decide +kernel : ∀ t : Fin grid0.N, win0_3.index t 0 = t.val % 4 ∧ win0_3.index t 1 = (t.val / 4) % 8)
theorem idx4 : ∀ t : Fin cfg0.N, win0_4.index t 0 = t.val % 4 ∧ win0_4.index t 1 = (t.val / 4) % 8 :=
  (by decide +kernel : ∀ t : Fin grid0.N, win0_4.index t 0 = t.val % 4 ∧ win0_4.index t 1 = (t.val / 4) % 8)
theorem idx5 : ∀ t : Fin cfg0.N, win0_5.index t 0 = t.val % 4 ∧ win0_5.index t 1 = (t.val / 4) % 8 :=
  (by decide +kernel : ∀ t : Fin grid0.N, win0_5.index t 0 = t.val % 4 ∧ win0_5.index t 1 = (t.val / 4) % 8)
theorem idx6 : ∀ t : Fin cfg0.N, win0_6.index t 0 = t.val % 4 ∧ win0_6.index t 1 = (t.val / 4) % 8 :=
  (by decide +kernel : ∀ t : Fin grid0.N, win0_6.index t 0 = t.val % 4 ∧ win0_6.index t 1 = (t.val / 4) % 8)
theorem idx7 : ∀ t : Fin cfg0.N, win0_7.index t 0 = (t.val / 4) % 8 :=
  (by decide +kernel : ∀ t : Fin grid0.N, win0_7.index t 0 = (t.val / 4) % 8)
theorem idx8 : ∀ t : Fin cfg0.N, win0_8.index t 0 = t.val % 4 ∧ win0_8.index t 1 = (t.val / 4) % 8 :=
  (by decide +kernel : ∀ t : Fin grid0.N, win0_8.index t 0 = t.val % 4 ∧ win0_8.index t 1 = (t.val / 4) % 8)
theorem idx9 : ∀ t : Fin cfg0.N, win0_9.index t 0 = (t.val / 4) % 8 :=
  (by decide +kernel : ∀ t : Fin grid0.N, win0_9.index t 0 = (t.val / 4) % 8)
theorem idx10 : ∀ t : Fin cfg0.N, win0_10.index t 0 = t.val % 4 ∧ win0_10.index t 1 = (t.val / 4) % 8 :=
  (by decide +kernel : ∀ t : Fin grid0.N, win0_10.index t 0 = t.val % 4 ∧ win0_10.index t 1 = (t.val / 4) % 8)
theorem idx11 : ∀ t : Fin cfg0.N, win0_11.index t 0 = (t.val / 4) % 8 :=
  (by decide +kernel : ∀ t : Fin grid0.N, win0_11.index t 0 = (t.val / 4) % 8)
theorem idx12 : ∀ t : Fin cfg0.N, win0_12.index t 0 = t.val % 4 ∧ win0_12.index t 1 = (t.val / 4) % 8 :=
  (by decide +kernel : ∀ t : Fin grid0.N, win0_12.index t 0 = t.val % 4 ∧ win0_12.index t 1 = (t.val / 4) % 8)
theorem idx13 : ∀ t : Fin cfg0.N, win0_13.index t 0 = (t.val / 4) % 8 :=
  (by decide +kernel : ∀ t : Fin grid0.N, win0_13.index t 0 = (t.val / 4) % 8)
theorem idx14 : ∀ t : Fin cfg0.N, win0_14.index t 0 = t.val / 32 ∧ win0_14.index t 1 = (t.val / 4) % 8 :=
  (by decide +kernel : ∀ t : Fin grid0.N, win0_14.index t 0 = t.val / 32 ∧ win0_14.index t 1 = (t.val / 4) % 8)
theorem idx15 : ∀ t : Fin cfg0.N, win0_15.index t 0 = t.val / 32 ∧ win0_15.index t 1 = (t.val / 4) % 8 :=
  (by decide +kernel : ∀ t : Fin grid0.N, win0_15.index t 0 = t.val / 32 ∧ win0_15.index t 1 = (t.val / 4) % 8)

/-! ## The input blocks -/

/-- Point t's block of x: its rows against its stretch of contracted indices. -/
theorem blk0 (c : Dev nD) (t : Fin cfg0.N) (p k : Fin 512) :
    (iblk m c 0 t : Vec F S512x512 .f32) (ix2 p k)
      = (m ((c : Thread nD τ).loc main_arg0) : Vec F S4096x2048 .f32) (ix2 (rowOf t p) (conOf t k)) := by
  obtain ⟨e0, e1⟩ := idx0 t
  unfold iblk
  rw [View.read_apply]
  show V m c main_arg0 _ = _
  unfold V
  congr 1
  funext a
  apply Fin.ext
  match a with
  | ⟨0, _⟩ => show win0_0.index t 0 * 512 + 1 * p.val = 512 * (t.val / 32) + p.val; rw [e0]; omega
  | ⟨1, _⟩ => show win0_0.index t 1 * 512 + 1 * k.val = 512 * (t.val % 4) + k.val; rw [e1]; omega

/-- Point t's block of h: its rows against its stretch of contracted indices. -/
theorem blk1 (c : Dev nD) (t : Fin cfg0.N) (p k : Fin 512) :
    (iblk m c 1 t : Vec F S512x512 .f32) (ix2 p k)
      = (m ((c : Thread nD τ).loc main_arg1) : Vec F S4096x2048 .f32) (ix2 (rowOf t p) (conOf t k)) := by
  obtain ⟨e0, e1⟩ := idx1 t
  unfold iblk
  rw [View.read_apply]
  show V m c main_arg1 _ = _
  unfold V
  congr 1
  funext a
  apply Fin.ext
  match a with
  | ⟨0, _⟩ => show win0_1.index t 0 * 512 + 1 * p.val = 512 * (t.val / 32) + p.val; rw [e0]; omega
  | ⟨1, _⟩ => show win0_1.index t 1 * 512 + 1 * k.val = 512 * (t.val % 4) + k.val; rw [e1]; omega

/-- Point t's block of c: its rows against its columns. -/
theorem blk2 (c : Dev nD) (t : Fin cfg0.N) (p : Fin 512) (q : Fin 256) :
    (iblk m c 2 t : Vec F S512x256 .f32) (ix2 p q)
      = (m ((c : Thread nD τ).loc main_arg2) : Vec F S4096x2048 .f32) (ix2 (rowOf t p) (colOf t q)) := by
  obtain ⟨e0, e1⟩ := idx2 t
  unfold iblk
  rw [View.read_apply]
  show V m c main_arg2 _ = _
  unfold V
  congr 1
  funext a
  apply Fin.ext
  match a with
  | ⟨0, _⟩ => show win0_2.index t 0 * 512 + 1 * p.val = 512 * (t.val / 32) + p.val; rw [e0]; omega
  | ⟨1, _⟩ => show win0_2.index t 1 * 256 + 1 * q.val = 256 * ((t.val / 4) % 8) + q.val; rw [e1]; omega

/-- Point t's block of Wf: its stretch of contracted indices against its columns. -/
theorem blk3 (c : Dev nD) (t : Fin cfg0.N) (k : Fin 512) (q : Fin 256) :
    (iblk m c 3 t : Vec F S512x256 .f32) (ix2 k q)
      = (m ((c : Thread nD τ).loc main_arg3) : Vec F S2048x2048 .f32) (ix2 (conOf t k) (colOf t q)) := by
  obtain ⟨e0, e1⟩ := idx3 t
  unfold iblk
  rw [View.read_apply]
  show V m c main_arg3 _ = _
  unfold V
  congr 1
  funext a
  apply Fin.ext
  match a with
  | ⟨0, _⟩ => show win0_3.index t 0 * 512 + 1 * k.val = 512 * (t.val % 4) + k.val; rw [e0]; omega
  | ⟨1, _⟩ => show win0_3.index t 1 * 256 + 1 * q.val = 256 * ((t.val / 4) % 8) + q.val; rw [e1]; omega

/-- Point t's block of Wi: its stretch of contracted indices against its columns. -/
theorem blk4 (c : Dev nD) (t : Fin cfg0.N) (k : Fin 512) (q : Fin 256) :
    (iblk m c 4 t : Vec F S512x256 .f32) (ix2 k q)
      = (m ((c : Thread nD τ).loc main_arg4) : Vec F S2048x2048 .f32) (ix2 (conOf t k) (colOf t q)) := by
  obtain ⟨e0, e1⟩ := idx4 t
  unfold iblk
  rw [View.read_apply]
  show V m c main_arg4 _ = _
  unfold V
  congr 1
  funext a
  apply Fin.ext
  match a with
  | ⟨0, _⟩ => show win0_4.index t 0 * 512 + 1 * k.val = 512 * (t.val % 4) + k.val; rw [e0]; omega
  | ⟨1, _⟩ => show win0_4.index t 1 * 256 + 1 * q.val = 256 * ((t.val / 4) % 8) + q.val; rw [e1]; omega

/-- Point t's block of Wo: its stretch of contracted indices against its columns. -/
theorem blk5 (c : Dev nD) (t : Fin cfg0.N) (k : Fin 512) (q : Fin 256) :
    (iblk m c 5 t : Vec F S512x256 .f32) (ix2 k q)
      = (m ((c : Thread nD τ).loc main_arg5) : Vec F S2048x2048 .f32) (ix2 (conOf t k) (colOf t q)) := by
  obtain ⟨e0, e1⟩ := idx5 t
  unfold iblk
  rw [View.read_apply]
  show V m c main_arg5 _ = _
  unfold V
  congr 1
  funext a
  apply Fin.ext
  match a with
  | ⟨0, _⟩ => show win0_5.index t 0 * 512 + 1 * k.val = 512 * (t.val % 4) + k.val; rw [e0]; omega
  | ⟨1, _⟩ => show win0_5.index t 1 * 256 + 1 * q.val = 256 * ((t.val / 4) % 8) + q.val; rw [e1]; omega

/-- Point t's block of Wc: its stretch of contracted indices against its columns. -/
theorem blk6 (c : Dev nD) (t : Fin cfg0.N) (k : Fin 512) (q : Fin 256) :
    (iblk m c 6 t : Vec F S512x256 .f32) (ix2 k q)
      = (m ((c : Thread nD τ).loc main_arg6) : Vec F S2048x2048 .f32) (ix2 (conOf t k) (colOf t q)) := by
  obtain ⟨e0, e1⟩ := idx6 t
  unfold iblk
  rw [View.read_apply]
  show V m c main_arg6 _ = _
  unfold V
  congr 1
  funext a
  apply Fin.ext
  match a with
  | ⟨0, _⟩ => show win0_6.index t 0 * 512 + 1 * k.val = 512 * (t.val % 4) + k.val; rw [e0]; omega
  | ⟨1, _⟩ => show win0_6.index t 1 * 256 + 1 * q.val = 256 * ((t.val / 4) % 8) + q.val; rw [e1]; omega

/-- Point t's block of bc: the entries of its columns. -/
theorem blk7 (c : Dev nD) (t : Fin cfg0.N) (q : Fin 256) :
    (iblk m c 7 t : Vec F S256 .f32) (ix1 q)
      = (m ((c : Thread nD τ).loc main_arg7) : Vec F S2048 .f32) (ix1 (colOf t q)) := by
  have e0 := idx7 t
  unfold iblk
  rw [View.read_apply]
  show V m c main_arg7 _ = _
  unfold V
  congr 1
  funext a
  apply Fin.ext
  match a with
  | ⟨0, _⟩ => show win0_7.index t 0 * 256 + 1 * q.val = 256 * ((t.val / 4) % 8) + q.val; rw [e0]; omega

/-- Point t's block of Uf: its stretch of contracted indices against its columns. -/
theorem blk8 (c : Dev nD) (t : Fin cfg0.N) (k : Fin 512) (q : Fin 256) :
    (iblk m c 8 t : Vec F S512x256 .f32) (ix2 k q)
      = (m ((c : Thread nD τ).loc main_arg8) : Vec F S2048x2048 .f32) (ix2 (conOf t k) (colOf t q)) := by
  obtain ⟨e0, e1⟩ := idx8 t
  unfold iblk
  rw [View.read_apply]
  show V m c main_arg8 _ = _
  unfold V
  congr 1
  funext a
  apply Fin.ext
  match a with
  | ⟨0, _⟩ => show win0_8.index t 0 * 512 + 1 * k.val = 512 * (t.val % 4) + k.val; rw [e0]; omega
  | ⟨1, _⟩ => show win0_8.index t 1 * 256 + 1 * q.val = 256 * ((t.val / 4) % 8) + q.val; rw [e1]; omega

/-- Point t's block of bf: the entries of its columns. -/
theorem blk9 (c : Dev nD) (t : Fin cfg0.N) (q : Fin 256) :
    (iblk m c 9 t : Vec F S256 .f32) (ix1 q)
      = (m ((c : Thread nD τ).loc main_arg9) : Vec F S2048 .f32) (ix1 (colOf t q)) := by
  have e0 := idx9 t
  unfold iblk
  rw [View.read_apply]
  show V m c main_arg9 _ = _
  unfold V
  congr 1
  funext a
  apply Fin.ext
  match a with
  | ⟨0, _⟩ => show win0_9.index t 0 * 256 + 1 * q.val = 256 * ((t.val / 4) % 8) + q.val; rw [e0]; omega

/-- Point t's block of Ui: its stretch of contracted indices against its columns. -/
theorem blk10 (c : Dev nD) (t : Fin cfg0.N) (k : Fin 512) (q : Fin 256) :
    (iblk m c 10 t : Vec F S512x256 .f32) (ix2 k q)
      = (m ((c : Thread nD τ).loc main_arg10) : Vec F S2048x2048 .f32) (ix2 (conOf t k) (colOf t q)) := by
  obtain ⟨e0, e1⟩ := idx10 t
  unfold iblk
  rw [View.read_apply]
  show V m c main_arg10 _ = _
  unfold V
  congr 1
  funext a
  apply Fin.ext
  match a with
  | ⟨0, _⟩ => show win0_10.index t 0 * 512 + 1 * k.val = 512 * (t.val % 4) + k.val; rw [e0]; omega
  | ⟨1, _⟩ => show win0_10.index t 1 * 256 + 1 * q.val = 256 * ((t.val / 4) % 8) + q.val; rw [e1]; omega

/-- Point t's block of bi: the entries of its columns. -/
theorem blk11 (c : Dev nD) (t : Fin cfg0.N) (q : Fin 256) :
    (iblk m c 11 t : Vec F S256 .f32) (ix1 q)
      = (m ((c : Thread nD τ).loc main_arg11) : Vec F S2048 .f32) (ix1 (colOf t q)) := by
  have e0 := idx11 t
  unfold iblk
  rw [View.read_apply]
  show V m c main_arg11 _ = _
  unfold V
  congr 1
  funext a
  apply Fin.ext
  match a with
  | ⟨0, _⟩ => show win0_11.index t 0 * 256 + 1 * q.val = 256 * ((t.val / 4) % 8) + q.val; rw [e0]; omega

/-- Point t's block of Uo: its stretch of contracted indices against its columns. -/
theorem blk12 (c : Dev nD) (t : Fin cfg0.N) (k : Fin 512) (q : Fin 256) :
    (iblk m c 12 t : Vec F S512x256 .f32) (ix2 k q)
      = (m ((c : Thread nD τ).loc main_arg12) : Vec F S2048x2048 .f32) (ix2 (conOf t k) (colOf t q)) := by
  obtain ⟨e0, e1⟩ := idx12 t
  unfold iblk
  rw [View.read_apply]
  show V m c main_arg12 _ = _
  unfold V
  congr 1
  funext a
  apply Fin.ext
  match a with
  | ⟨0, _⟩ => show win0_12.index t 0 * 512 + 1 * k.val = 512 * (t.val % 4) + k.val; rw [e0]; omega
  | ⟨1, _⟩ => show win0_12.index t 1 * 256 + 1 * q.val = 256 * ((t.val / 4) % 8) + q.val; rw [e1]; omega

/-- Point t's block of bo: the entries of its columns. -/
theorem blk13 (c : Dev nD) (t : Fin cfg0.N) (q : Fin 256) :
    (iblk m c 13 t : Vec F S256 .f32) (ix1 q)
      = (m ((c : Thread nD τ).loc main_arg13) : Vec F S2048 .f32) (ix1 (colOf t q)) := by
  have e0 := idx13 t
  unfold iblk
  rw [View.read_apply]
  show V m c main_arg13 _ = _
  unfold V
  congr 1
  funext a
  apply Fin.ext
  match a with
  | ⟨0, _⟩ => show win0_13.index t 0 * 256 + 1 * q.val = 256 * ((t.val / 4) % 8) + q.val; rw [e0]; omega

/-! ## The output blocks, and that the blocks written back cover the results -/

/-- Point t's block of the first result, read off any contents of that array: its rows against its columns. -/
theorem oblk14 (c : Dev nD) (t : Fin cfg0.N) (G : Buf (Elt F) ((c : Thread nD τ).loc main_v0_0)) (p : Fin 512) (q : Fin 256) :
    (((cfg0.win 14).blk t).view.read (Elt F) G : Vec F S512x256 .f32) (ix2 p q)
      = (G : Vec F S4096x2048 .f32) (ix2 (rowOf t p) (colOf t q)) := by
  obtain ⟨e0, e1⟩ := idx14 t
  rw [View.read_apply]
  refine congrArg (G : Vec F S4096x2048 .f32) ?_
  funext a
  apply Fin.ext
  match a with
  | ⟨0, _⟩ => show win0_14.index t 0 * 512 + 1 * p.val = 512 * (t.val / 32) + p.val; rw [e0]; omega
  | ⟨1, _⟩ => show win0_14.index t 1 * 256 + 1 * q.val = 256 * ((t.val / 4) % 8) + q.val; rw [e1]; omega

/-- An entry of the first result lies in point t's block iff each coordinate lies in the block's range. -/
theorem mem_blk14 (t : Fin cfg0.N) (i : S4096x2048.Idx) :
    i ∈ ((cfg0.win 14).blk t).view.set ↔ ∀ a : Fin 2, win0_14.index t a * S512x256.size a ≤ (i a).val
      ∧ (i a).val < win0_14.index t a * S512x256.size a + S512x256.size a := by
  show i ∈ ((View.whole main_v0_0).slice (win0_14.rect t)).set ↔ _
  rw [View.set_slice_whole, Rect.mem_set_unit]
  exact Iff.rfl

/-- Every entry (r, j) of the first result is in the block written back at the point
    32·(r / 512) + 4·(j / 256) + 3. -/
theorem cover14 (i : S4096x2048.Idx) :
    ∃ t : Fin cfg0.N, (cfg0.win 14).flush t = true ∧ i ∈ ((cfg0.win 14).blk t).view.set := by
  have hi0 : (i 0).val < 4096 := (i 0).isLt
  have hi1 : (i 1).val < 2048 := (i 1).isLt
  have hN : cfg0.N = 256 := N_0
  obtain ⟨t, ht⟩ : ∃ t : Fin cfg0.N, t.val = 32 * ((i 0).val / 512) + 4 * ((i 1).val / 256) + 3 :=
    ⟨⟨32 * ((i 0).val / 512) + 4 * ((i 1).val / 256) + 3, by omega⟩, rfl⟩
  obtain ⟨e0, e1⟩ := idx14 t
  refine ⟨t, (flush0_14 t).2 (by omega), ?_⟩
  rw [mem_blk14]
  intro a
  match a with
  | ⟨0, _⟩ =>
    show win0_14.index t 0 * 512 ≤ (i 0).val ∧ (i 0).val < win0_14.index t 0 * 512 + 512
    rw [e0]; omega
  | ⟨1, _⟩ =>
    show win0_14.index t 1 * 256 ≤ (i 1).val ∧ (i 1).val < win0_14.index t 1 * 256 + 256
    rw [e1]; omega

/-- Point t's block of the second result, read off any contents of that array: its rows against its columns. -/
theorem oblk15 (c : Dev nD) (t : Fin cfg0.N) (G : Buf (Elt F) ((c : Thread nD τ).loc main_v0_1)) (p : Fin 512) (q : Fin 256) :
    (((cfg0.win 15).blk t).view.read (Elt F) G : Vec F S512x256 .f32) (ix2 p q)
      = (G : Vec F S4096x2048 .f32) (ix2 (rowOf t p) (colOf t q)) := by
  obtain ⟨e0, e1⟩ := idx15 t
  rw [View.read_apply]
  refine congrArg (G : Vec F S4096x2048 .f32) ?_
  funext a
  apply Fin.ext
  match a with
  | ⟨0, _⟩ => show win0_15.index t 0 * 512 + 1 * p.val = 512 * (t.val / 32) + p.val; rw [e0]; omega
  | ⟨1, _⟩ => show win0_15.index t 1 * 256 + 1 * q.val = 256 * ((t.val / 4) % 8) + q.val; rw [e1]; omega

/-- An entry of the second result lies in point t's block iff each coordinate lies in the block's range. -/
theorem mem_blk15 (t : Fin cfg0.N) (i : S4096x2048.Idx) :
    i ∈ ((cfg0.win 15).blk t).view.set ↔ ∀ a : Fin 2, win0_15.index t a * S512x256.size a ≤ (i a).val
      ∧ (i a).val < win0_15.index t a * S512x256.size a + S512x256.size a := by
  show i ∈ ((View.whole main_v0_1).slice (win0_15.rect t)).set ↔ _
  rw [View.set_slice_whole, Rect.mem_set_unit]
  exact Iff.rfl

/-- Every entry (r, j) of the second result is in the block written back at the point
    32·(r / 512) + 4·(j / 256) + 3. -/
theorem cover15 (i : S4096x2048.Idx) :
    ∃ t : Fin cfg0.N, (cfg0.win 15).flush t = true ∧ i ∈ ((cfg0.win 15).blk t).view.set := by
  have hi0 : (i 0).val < 4096 := (i 0).isLt
  have hi1 : (i 1).val < 2048 := (i 1).isLt
  have hN : cfg0.N = 256 := N_0
  obtain ⟨t, ht⟩ : ∃ t : Fin cfg0.N, t.val = 32 * ((i 0).val / 512) + 4 * ((i 1).val / 256) + 3 :=
    ⟨⟨32 * ((i 0).val / 512) + 4 * ((i 1).val / 256) + 3, by omega⟩, rfl⟩
  obtain ⟨e0, e1⟩ := idx15 t
  refine ⟨t, (flush0_15 t).2 (by omega), ?_⟩
  rw [mem_blk15]
  intro a
  match a with
  | ⟨0, _⟩ =>
    show win0_15.index t 0 * 512 ≤ (i 0).val ∧ (i 0).val < win0_15.index t 0 * 512 + 512
    rw [e0]; omega
  | ⟨1, _⟩ =>
    show win0_15.index t 1 * 256 ≤ (i 1).val ∧ (i 1).val < win0_15.index t 1 * 256 + 256
    rw [e1]; omega

/-! ## Points of one run of four contraction steps -/

/-- Points with the same quotient by 4 share their row block. -/
theorem rowOf_eq (s t : Fin cfg0.N) (h : s.val / 4 = t.val / 4) (p : Fin 512) : rowOf s p = rowOf t p := by
  apply Fin.ext
  show 512 * (s.val / 32) + p.val = 512 * (t.val / 32) + p.val
  omega

/-- Points with the same quotient by 4 share their column block. -/
theorem colOf_eq (s t : Fin cfg0.N) (h : s.val / 4 = t.val / 4) (q : Fin 256) : colOf s q = colOf t q := by
  apply Fin.ext
  show 256 * ((s.val / 4) % 8) + q.val = 256 * ((t.val / 4) % 8) + q.val
  rw [h]

/-- A point's stretch of contracted indices is the one its remainder by 4 names. -/
theorem conOf_eq (s : Fin cfg0.N) (b : Fin 4) (h : s.val % 4 = b.val) (k : Fin 512) : conOf s k = Cert.Lstm.kix b k := by
  apply Fin.ext
  show 512 * (s.val % 4) + k.val = 512 * b.val + k.val
  rw [h]

end Cert.KernelIdeal.Blocks

end
-- ==== Proof.KernelValue.lean ====
/-
  The kernel's two result arrays, as functions of its arguments.

  The grid has 256 points, 32·a + 4·n + k for the row block a, the column block n and the contraction stretch k.
  The output blocks (a, n) are written back only at k = 3. There the seven accumulators hold the four partial
  products of the run added one after the other onto zero, which is the whole contracted sum; so the block written
  back is the block (a, n) of the cell step's result, entry by entry, and the 64 blocks cover the arrays.
-/
import proofs.«148913_j57114475102581_1_alg».proof.Proof.KernelIdealValue
import proofs.«148913_j57114475102581_1_alg».proof.Proof.KernelScratch
import proofs.«148913_j57114475102581_1_alg».proof.Proof.KernelBlocks
import proofs.«148913_j57114475102581_1_alg».proof.Proof.KernelMath
import proofs.«148913_j57114475102581_1_alg».proof.Proof.Spec

noncomputable section

namespace Cert.KernelIdeal.Final

open Cert.KernelIdeal Cert.KernelIdeal.Gen Cert.KernelIdeal.GenP Cert.KernelIdeal.ValueP
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The gated output of the cell step on core c's arguments. -/
abbrev outG (c : Dev nD) : Buf (Elt Ideal) ((c : Thread nD τ).loc main_v0_0) :=
  Cert.Lstm.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The new cell state of the cell step on core c's arguments. -/
abbrev cellG (c : Dev nD) : Buf (Elt Ideal) ((c : Thread nD τ).loc main_v0_1) :=
  Cert.Lstm.cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The points of one run of four contraction steps share the row block and the column block … -/
theorem hdiv (t : Fin cfg0.N) (b : Fin 4) : (Scratch.pt t b).val / 4 = t.val / 4 := by
  have hb := b.isLt
  show (4 * (t.val / 4) + b.val) / 4 = t.val / 4
  omega

/-- … and the b-th of them is at contraction stretch b. -/
theorem hmod (t : Fin cfg0.N) (b : Fin 4) : (Scratch.pt t b).val % 4 = b.val := by
  have hb := b.isLt
  show (4 * (t.val / 4) + b.val) % 4 = b.val
  omega

/-- What a writing-back point writes to the first result: its block of the gated output. -/
theorem flushed14_eq (c : Dev nD) (t : Fin cfg0.N) (hf : (cfg0.win 14).flush t = true) :
    (dats m 0 c).flushed 14 t = ((cfg0.win 14).blk t).view.read (Elt Ideal) (outG m c) := by
  have h3 : t.val % 4 = 3 := (flush0_14 t).mp hf
  have h0 : ¬t.val % 4 = 0 := by omega
  rw [flushed14 m c t]
  refine (congrArg ((cfg0.win 14).cut (grid0.coords t)) (Scratch.out14_at m c t h0 h3)).trans ?_
  funext y
  obtain ⟨p, q, rfl⟩ : ∃ (p : Fin 512) (q : Fin 256), y = ix2 p q := ⟨y 0, y 1, eq_ix2 y⟩
  refine Eq.trans ?_ (Blocks.oblk14 c t (outG m c) p q).symm
  exact Math.out_entry (fun b => iblk m c 0 (Scratch.pt t b)) (fun b => iblk m c 1 (Scratch.pt t b))
    (fun b => iblk m c 3 (Scratch.pt t b)) (fun b => iblk m c 4 (Scratch.pt t b)) (fun b => iblk m c 5 (Scratch.pt t b)) (fun b => iblk m c 6 (Scratch.pt t b))
    (fun b => iblk m c 8 (Scratch.pt t b)) (fun b => iblk m c 10 (Scratch.pt t b)) (fun b => iblk m c 12 (Scratch.pt t b))
    (iblk m c 7 t) (iblk m c 9 t) (iblk m c 11 t) (iblk m c 13 t) (iblk m c 2 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    (Blocks.rowOf t p) (Blocks.colOf t q) p q
    (fun b k => by rw [Blocks.blk0 m c (Scratch.pt t b) p k, Blocks.rowOf_eq (Scratch.pt t b) t (hdiv t b) p, Blocks.conOf_eq (Scratch.pt t b) b (hmod t b) k])
    (fun b k => by rw [Blocks.blk1 m c (Scratch.pt t b) p k, Blocks.rowOf_eq (Scratch.pt t b) t (hdiv t b) p, Blocks.conOf_eq (Scratch.pt t b) b (hmod t b) k])
    (fun b k => by rw [Blocks.blk3 m c (Scratch.pt t b) k q, Blocks.colOf_eq (Scratch.pt t b) t (hdiv t b) q, Blocks.conOf_eq (Scratch.pt t b) b (hmod t b) k])
    (fun b k => by rw [Blocks.blk4 m c (Scratch.pt t b) k q, Blocks.colOf_eq (Scratch.pt t b) t (hdiv t b) q, Blocks.conOf_eq (Scratch.pt t b) b (hmod t b) k])
    (fun b k => by rw [Blocks.blk5 m c (Scratch.pt t b) k q, Blocks.colOf_eq (Scratch.pt t b) t (hdiv t b) q, Blocks.conOf_eq (Scratch.pt t b) b (hmod t b) k])
    (fun b k => by rw [Blocks.blk6 m c (Scratch.pt t b) k q, Blocks.colOf_eq (Scratch.pt t b) t (hdiv t b) q, Blocks.conOf_eq (Scratch.pt t b) b (hmod t b) k])
    (fun b k => by rw [Blocks.blk8 m c (Scratch.pt t b) k q, Blocks.colOf_eq (Scratch.pt t b) t (hdiv t b) q, Blocks.conOf_eq (Scratch.pt t b) b (hmod t b) k])
    (fun b k => by rw [Blocks.blk10 m c (Scratch.pt t b) k q, Blocks.colOf_eq (Scratch.pt t b) t (hdiv t b) q, Blocks.conOf_eq (Scratch.pt t b) b (hmod t b) k])
    (fun b k => by rw [Blocks.blk12 m c (Scratch.pt t b) k q, Blocks.colOf_eq (Scratch.pt t b) t (hdiv t b) q, Blocks.conOf_eq (Scratch.pt t b) b (hmod t b) k])
    (Blocks.blk7 m c t q) (Blocks.blk9 m c t q) (Blocks.blk11 m c t q) (Blocks.blk13 m c t q) (Blocks.blk2 m c t p q)

/-- What a writing-back point writes to the second result: its block of the new cell state. -/
theorem flushed15_eq (c : Dev nD) (t : Fin cfg0.N) (hf : (cfg0.win 15).flush t = true) :
    (dats m 0 c).flushed 15 t = ((cfg0.win 15).blk t).view.read (Elt Ideal) (cellG m c) := by
  have h3 : t.val % 4 = 3 := (flush0_15 t).mp hf
  have h0 : ¬t.val % 4 = 0 := by omega
  rw [flushed15 m c t]
  refine (congrArg ((cfg0.win 15).cut (grid0.coords t)) (Scratch.out15_at m c t h0 h3)).trans ?_
  funext y
  obtain ⟨p, q, rfl⟩ : ∃ (p : Fin 512) (q : Fin 256), y = ix2 p q := ⟨y 0, y 1, eq_ix2 y⟩
  refine Eq.trans ?_ (Blocks.oblk15 c t (cellG m c) p q).symm
  exact Math.cell_entry (fun b => iblk m c 0 (Scratch.pt t b)) (fun b => iblk m c 1 (Scratch.pt t b))
    (fun b => iblk m c 3 (Scratch.pt t b)) (fun b => iblk m c 4 (Scratch.pt t b)) (fun b => iblk m c 5 (Scratch.pt t b)) (fun b => iblk m c 6 (Scratch.pt t b))
    (fun b => iblk m c 8 (Scratch.pt t b)) (fun b => iblk m c 10 (Scratch.pt t b)) (fun b => iblk m c 12 (Scratch.pt t b))
    (iblk m c 7 t) (iblk m c 9 t) (iblk m c 11 t) (iblk m c 13 t) (iblk m c 2 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    (Blocks.rowOf t p) (Blocks.colOf t q) p q
    (fun b k => by rw [Blocks.blk0 m c (Scratch.pt t b) p k, Blocks.rowOf_eq (Scratch.pt t b) t (hdiv t b) p, Blocks.conOf_eq (Scratch.pt t b) b (hmod t b) k])
    (fun b k => by rw [Blocks.blk1 m c (Scratch.pt t b) p k, Blocks.rowOf_eq (Scratch.pt t b) t (hdiv t b) p, Blocks.conOf_eq (Scratch.pt t b) b (hmod t b) k])
    (fun b k => by rw [Blocks.blk3 m c (Scratch.pt t b) k q, Blocks.colOf_eq (Scratch.pt t b) t (hdiv t b) q, Blocks.conOf_eq (Scratch.pt t b) b (hmod t b) k])
    (fun b k => by rw [Blocks.blk4 m c (Scratch.pt t b) k q, Blocks.colOf_eq (Scratch.pt t b) t (hdiv t b) q, Blocks.conOf_eq (Scratch.pt t b) b (hmod t b) k])
    (fun b k => by rw [Blocks.blk5 m c (Scratch.pt t b) k q, Blocks.colOf_eq (Scratch.pt t b) t (hdiv t b) q, Blocks.conOf_eq (Scratch.pt t b) b (hmod t b) k])
    (fun b k => by rw [Blocks.blk6 m c (Scratch.pt t b) k q, Blocks.colOf_eq (Scratch.pt t b) t (hdiv t b) q, Blocks.conOf_eq (Scratch.pt t b) b (hmod t b) k])
    (fun b k => by rw [Blocks.blk8 m c (Scratch.pt t b) k q, Blocks.colOf_eq (Scratch.pt t b) t (hdiv t b) q, Blocks.conOf_eq (Scratch.pt t b) b (hmod t b) k])
    (fun b k => by rw [Blocks.blk10 m c (Scratch.pt t b) k q, Blocks.colOf_eq (Scratch.pt t b) t (hdiv t b) q, Blocks.conOf_eq (Scratch.pt t b) b (hmod t b) k])
    (fun b k => by rw [Blocks.blk12 m c (Scratch.pt t b) k q, Blocks.colOf_eq (Scratch.pt t b) t (hdiv t b) q, Blocks.conOf_eq (Scratch.pt t b) b (hmod t b) k])
    (Blocks.blk7 m c t q) (Blocks.blk9 m c t q) (Blocks.blk11 m c t q) (Blocks.blk13 m c t q) (Blocks.blk2 m c t p q)

/-- The first result array ends holding the gated output. -/
theorem final14 (c : Dev nD) : (dats m 0 c).arrAt 14 cfg0.N = outG m c :=
  (dats m 0 c).arrAt_eq_of_cover 14 (outG m c) (flushed14_eq m c) Blocks.cover14

/-- The second result array ends holding the new cell state. -/
theorem final15 (c : Dev nD) : (dats m 0 c).arrAt 15 cfg0.N = cellG m c :=
  (dats m 0 c).arrAt_eq_of_cover 15 (cellG m c) (flushed15_eq m c) Blocks.cover15

/-- Every weakly fair execution of the kernel's program terminates with the two results at the cell step of the
    arguments, and the arguments unchanged. -/
theorem run : θ_run defs (onTc (τ := τ) (main (F := Ideal))) ⟨m, fun _ => 0, ρ⟩ fun r => ∀ c : Dev nD,
      r.2.mem ((c : Thread nD τ).loc main_v0_0) = outG m c
      ∧ r.2.mem ((c : Thread nD τ).loc main_v0_1) = cellG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final14 m c), (h c).2.1.trans (final15 m c), (h c).2.2⟩)
    (run_blocks m ρ)

end Cert.KernelIdeal.Final

end
-- ==== Proof.lean ====
/-
  Both programs compute one step of the LSTM cell of Spec.lean. The kernel cuts the contraction of each projection into
  four stretches of 512 indices and accumulates the four partial sums in turn; the reference joins the weight matrices
  side by side, takes one product with x and one with h, and cuts the products back into the gates' columns. Each
  side's results are that specification's two arrays, so they are equal. The three frames are the programs' runs with
  the results dropped (the kernels' frames are generated).
-/
import proofs.«148913_j57114475102581_1_alg».proof.Defs
import proofs.«148913_j57114475102581_1_alg».proof.Proof.Gen.Kernel
import proofs.«148913_j57114475102581_1_alg».proof.Proof.Gen.KernelIdeal
import proofs.«148913_j57114475102581_1_alg».proof.Proof.Gen.ReferenceIdeal
import proofs.«148913_j57114475102581_1_alg».proof.Proof.Gen.Pre_finite_inputs
import proofs.«148913_j57114475102581_1_alg».proof.Proof.KernelFrame
import proofs.«148913_j57114475102581_1_alg».proof.Proof.KernelIdealFrame
import proofs.«148913_j57114475102581_1_alg».proof.Proof.RefSide
import proofs.«148913_j57114475102581_1_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.GenP.frame m ρ

/-- The kernel at the ideal values runs and leaves its arguments unchanged. -/
theorem frame_ki : Cert.frame_KernelIdeal := fun m ρ _ => Cert.KernelIdeal.GenP.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.RefValue.run m ρ)

/-- The ideal pass rewrote no operation. -/
theorem preserves : Cert.preserves_Kernel_KernelIdeal := trivial

/-- Both results are the specification's arrays at the kernel's arguments; the reference's arguments agree with them. -/
theorem algebraic : Cert.algebraic_KernelIdeal_ReferenceIdeal := by
  intro m ρ m' ρ' _ hagree
  refine ⟨fun c => Cert.Lstm.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.Lstm.cell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    Cert.KernelIdeal.Final.run m ρ, ?_⟩
  refine (θ_run Cert.ReferenceIdeal.defs _ _).mono (fun _ h c => ?_) (Cert.ReferenceIdeal.RefValue.run m' ρ')
  obtain ⟨e0, e1, e2, e3, e4, e5, e6, e7, e8, e9, e10, e11, e12, e13⟩ := hagree c
  refine ⟨(h c).1.trans ?_, (h c).2.1.trans ?_, (h c).2.2⟩
  · rw [e0, e1, e2, e3, e4, e5, e6, e7, e8, e9, e10, e11, e12, e13]
  · rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
